-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x192x96x96 : Shape := ⟨4, ![1, 192, 96, 96]⟩
abbrev S_ : Shape := ⟨0, ![]⟩

class Facts : Prop where
  bcast_S_S1x192x96x96 : S_.BroadcastsInDim S1x192x96x96 (![] : Fin 0 → Fin S1x192x96x96.rank)
  reducesTo_S1x192x96x96_S_d0_1_2_3 : S1x192x96x96.ReducesTo [0, 1, 2, 3] S_
  h_S_ : 0 < S_.numel

variable [Facts]

def fn_part1 {F : FTy → Type} [FloatOps F] (main_v13 : IVec S_ 1) (main_v16 : IVec S1x192x96x96 1) : IVec S_ 1 :=
  let main_c_5 : IVec S_ 1 := constantI S_ 1 1#1
  let main_v17 : IVec S_ 1 := (fun x v => Host.reduce IntOp.andi x v reducesTo_S1x192x96x96_S_d0_1_2_3 h_S_) main_v16 main_c_5
  let main_v18 : IVec S_ 1 := andi main_v13 main_v17
  main_v18

def fn {F : FTy → Type} [FloatOps F] (main_arg0 : FVec F S1x192x96x96 .f32) (main_arg1 : FVec F S1x192x96x96 .f32) (main_arg2 : FVec F S1x192x96x96 .f32) (main_arg3 : FVec F S1x192x96x96 .f32) : IVec S_ 1 :=
  let main_v0 : FVec F S1x192x96x96 .f32 := Host.absf main_arg0
  let main_cst : FVec F S_ .f32 := constant S_ .f32 0x7F800000#32
  let main_v1 : FVec F S1x192x96x96 .f32 := broadcastInDim S1x192x96x96 ![] bcast_S_S1x192x96x96 main_cst
  let main_v2 : IVec S1x192x96x96 1 := cmpf .olt main_v0 main_v1
  let main_c : IVec S_ 1 := constantI S_ 1 1#1
  let main_v3 : IVec S_ 1 := (fun x v => Host.reduce IntOp.andi x v reducesTo_S1x192x96x96_S_d0_1_2_3 h_S_) main_v2 main_c
  let main_v4 : FVec F S1x192x96x96 .f32 := Host.absf main_arg1
  let main_cst_0 : FVec F S_ .f32 := constant S_ .f32 0x7F800000#32
  let main_v5 : FVec F S1x192x96x96 .f32 := broadcastInDim S1x192x96x96 ![] bcast_S_S1x192x96x96 main_cst_0
  let main_v6 : IVec S1x192x96x96 1 := cmpf .olt main_v4 main_v5
  let main_c_1 : IVec S_ 1 := constantI S_ 1 1#1
  let main_v7 : IVec S_ 1 := (fun x v => Host.reduce IntOp.andi x v reducesTo_S1x192x96x96_S_d0_1_2_3 h_S_) main_v6 main_c_1
  let main_v8 : IVec S_ 1 := andi main_v3 main_v7
  let main_v9 : FVec F S1x192x96x96 .f32 := Host.absf main_arg2
  let main_cst_2 : FVec F S_ .f32 := constant S_ .f32 0x7F800000#32
  let main_v10 : FVec F S1x192x96x96 .f32 := broadcastInDim S1x192x96x96 ![] bcast_S_S1x192x96x96 main_cst_2
  let main_v11 : IVec S1x192x96x96 1 := cmpf .olt main_v9 main_v10
  let main_c_3 : IVec S_ 1 := constantI S_ 1 1#1
  let main_v12 : IVec S_ 1 := (fun x v => Host.reduce IntOp.andi x v reducesTo_S1x192x96x96_S_d0_1_2_3 h_S_) main_v11 main_c_3
  let main_v13 : IVec S_ 1 := andi main_v8 main_v12
  let main_v14 : FVec F S1x192x96x96 .f32 := Host.absf main_arg3
  let main_cst_4 : FVec F S_ .f32 := constant S_ .f32 0x7F800000#32
  let main_v15 : FVec F S1x192x96x96 .f32 := broadcastInDim S1x192x96x96 ![] bcast_S_S1x192x96x96 main_cst_4
  let main_v16 : IVec S1x192x96x96 1 := cmpf .olt main_v14 main_v15
  fn_part1 (F := F) main_v13 main_v16
-- ==== Kernel.lean ====
abbrev S1x192x96x96 : Shape := ⟨4, ![1, 192, 96, 96]⟩
abbrev S192x96x96 : Shape := ⟨3, ![192, 96, 96]⟩
abbrev S192x9216 : Shape := ⟨2, ![192, 9216]⟩
abbrev S9216x256 : Shape := ⟨2, ![9216, 256]⟩
abbrev S9216x192 : Shape := ⟨2, ![9216, 192]⟩
abbrev S192x1152 : Shape := ⟨2, ![192, 1152]⟩
abbrev S1152x256 : Shape := ⟨2, ![1152, 256]⟩
abbrev S1152x192 : Shape := ⟨2, ![1152, 192]⟩
abbrev S1152x64 : Shape := ⟨2, ![1152, 64]⟩
abbrev S192x128 : Shape := ⟨2, ![192, 128]⟩
abbrev S128x192 : Shape := ⟨2, ![128, 192]⟩
abbrev S128x9216 : Shape := ⟨2, ![128, 9216]⟩
abbrev S128 : Shape := ⟨1, ![128]⟩
abbrev S128x1 : Shape := ⟨2, ![128, 1]⟩
abbrev S128x256 : Shape := ⟨2, ![128, 256]⟩

abbrev nBuf : Space → Nat
  | .hbm => 16
  | .vmem => 18
  | .smem => 0
  | _ => 0

abbrev bufTy : (tb : Table) → Fin (tcTables nBuf tb) → BufTy
  | .hbm, ⟨0, _⟩ => ⟨S1x192x96x96, .f32⟩
  | .hbm, ⟨1, _⟩ => ⟨S1x192x96x96, .f32⟩
  | .hbm, ⟨2, _⟩ => ⟨S1x192x96x96, .f32⟩
  | .hbm, ⟨3, _⟩ => ⟨S1x192x96x96, .f32⟩
  | .hbm, ⟨4, _⟩ => ⟨S192x96x96, .f32⟩
  | .hbm, ⟨5, _⟩ => ⟨S192x9216, .f32⟩
  | .hbm, ⟨6, _⟩ => ⟨S192x96x96, .f32⟩
  | .hbm, ⟨7, _⟩ => ⟨S192x9216, .f32⟩
  | .hbm, ⟨8, _⟩ => ⟨S192x96x96, .f32⟩
  | .hbm, ⟨9, _⟩ => ⟨S192x9216, .f32⟩
  | .hbm, ⟨10, _⟩ => ⟨S192x96x96, .f32⟩
  | .hbm, ⟨11, _⟩ => ⟨S192x9216, .f32⟩
  | .hbm, ⟨12, _⟩ => ⟨S9216x256, .bf16⟩
  | .hbm, ⟨13, _⟩ => ⟨S9216x192, .bf16⟩
  | .hbm, ⟨14, _⟩ => ⟨S192x9216, .f32⟩
  | .hbm, ⟨15, _⟩ => ⟨S1x192x96x96, .f32⟩
  | .local _ .vmem, ⟨0, _⟩ => ⟨S192x1152, .f32⟩
  | .local _ .vmem, ⟨1, _⟩ => ⟨S192x1152, .f32⟩
  | .local _ .vmem, ⟨2, _⟩ => ⟨S192x1152, .f32⟩
  | .local _ .vmem, ⟨3, _⟩ => ⟨S192x1152, .f32⟩
  | .local _ .vmem, ⟨4, _⟩ => ⟨S192x1152, .f32⟩
  | .local _ .vmem, ⟨5, _⟩ => ⟨S192x1152, .f32⟩
  | .local _ .vmem, ⟨6, _⟩ => ⟨S1152x256, .bf16⟩
  | .local _ .vmem, ⟨7, _⟩ => ⟨S1152x256, .bf16⟩
  | .local _ .vmem, ⟨8, _⟩ => ⟨S1152x192, .bf16⟩
  | .local _ .vmem, ⟨9, _⟩ => ⟨S1152x192, .bf16⟩
  | .local _ .vmem, ⟨10, _⟩ => ⟨S9216x192, .bf16⟩
  | .local _ .vmem, ⟨11, _⟩ => ⟨S9216x256, .bf16⟩
  | .local _ .vmem, ⟨12, _⟩ => ⟨S192x128, .f32⟩
  | .local _ .vmem, ⟨13, _⟩ => ⟨S192x128, .f32⟩
  | .local _ .vmem, ⟨14, _⟩ => ⟨S192x128, .f32⟩
  | .local _ .vmem, ⟨15, _⟩ => ⟨S192x128, .f32⟩
  | .local _ .vmem, ⟨16, _⟩ => ⟨S192x128, .f32⟩
  | .local _ .vmem, ⟨17, _⟩ => ⟨S192x128, .f32⟩
  | _, _ => ⟨S1x192x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![72], ![false]⟩

def k1_mult1 (i : grid1.Coords) : BitVec 32 :=
  let arg0 : BitVec 32 := BitVec.ofNat 32 (i 0).val
  let c128_i32 : BitVec 32 := 128#32
  let v0 : BitVec 32 := Scalar.muli arg0 c128_i32
  v0
def k1_off1 (i : grid1.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S9216x192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S9216x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x192x96x96_S192x96x96 : S1x192x96x96.ShapeCasts S192x96x96
  shapeCasts_S192x96x96_S192x9216 : S192x96x96.ShapeCasts S192x9216
  inb_S192x1152_S192x1152_0_0 : ∀ a, (![0, 0] : Fin 2 → Nat) a + S192x1152.size a ≤ S192x1152.size a
  h_S192x1152 : 0 < S192x1152.numel
  shapeCasts_S192x1152_S192x1152 : S192x1152.ShapeCasts S192x1152
  bitsLt_bf16_f32 : FTy.bits .bf16 < FTy.bits .f32
  iota_S1152x64_d1_w32 : S1152x64.Iotas .tc 32 [1]
  transposes_S192x1152_p1_0_S1152x192 : S192x1152.Transposes [1, 0] S1152x192
  inb_S1152x256_S1152x192_0_0 : ∀ a, (![0, 0] : Fin 2 → Nat) a + S1152x192.size a ≤ S1152x256.size a
  h_S1152x192 : 0 < S1152x192.numel
  packedbf16_S1152x256_S1152x192_0_0 : (Rect.unit (s := S1152x256) ![0, 0] S1152x192.size inb_S1152x256_S1152x192_0_0).PackedRows (EltTy.packing .bf16)
  inb_S1152x256_S1152x64_0_192 : ∀ a, (![0, 192] : Fin 2 → Nat) a + S1152x64.size a ≤ S1152x256.size a
  h_S1152x64 : 0 < S1152x64.numel
  packedbf16_S1152x256_S1152x64_0_192 : (Rect.unit (s := S1152x256) ![0, 192] S1152x64.size inb_S1152x256_S1152x64_0_192).PackedRows (EltTy.packing .bf16)
  inb_S1152x192_S1152x192_0_0 : ∀ a, (![0, 0] : Fin 2 → Nat) a + S1152x192.size a ≤ S1152x192.size a
  packedbf16_S1152x192_S1152x192_0_0 : (Rect.unit (s := S1152x192) ![0, 0] S1152x192.size inb_S1152x192_S1152x192_0_0).PackedRows (EltTy.packing .bf16)
  h_S128x192 : 0 < S128x192.numel
  shapeCasts_S128x192_S128x192 : S128x192.ShapeCasts S128x192
  inb_S9216x192_S9216x192_0_0 : ∀ a, (![0, 0] : Fin 2 → Nat) a + S9216x192.size a ≤ S9216x192.size a
  h_S9216x192 : 0 < S9216x192.numel
  shapeCasts_S9216x192_S9216x192 : S9216x192.ShapeCasts S9216x192
  inb_S9216x256_S9216x256_0_0 : ∀ a, (![0, 0] : Fin 2 → Nat) a + S9216x256.size a ≤ S9216x256.size a
  h_S9216x256 : 0 < S9216x256.numel
  shapeCasts_S9216x256_S9216x256 : S9216x256.ShapeCasts S9216x256
  reduces_S128x9216_S128 : S128x9216.Reduces [1] S128
  shapeCasts_S128_S128x1 : S128.ShapeCasts S128x1
  broadcasts_S128x1_S128x9216 : S128x1.Broadcasts S128x9216
  slices_S128x256_o0_192_S128x1 : S128x256.Slices ![0, 192] S128x1
  slices_S128x256_o0_0_S128x192 : S128x256.Slices ![0, 0] S128x192
  broadcasts_S128x1_S128x192 : S128x1.Broadcasts S128x192
  transposes_S128x192_p1_0_S192x128 : S128x192.Transposes [1, 0] S192x128
  inb_S192x128_S192x128_0_0 : ∀ a, (![0, 0] : Fin 2 → Nat) a + S192x128.size a ≤ S192x128.size a
  h_S192x128 : 0 < S192x128.numel
  shapeCasts_S192x128_S192x128 : S192x128.ShapeCasts S192x128
  shapeCasts_S192x9216_S1x192x96x96 : S192x9216.ShapeCasts S1x192x96x96
  dot_S128x192_S9216x192_S128x9216_1_1_0_0_n_n_wf : DotDims.WF S128x192 S9216x192 S128x9216 [1] [1] [0] [0] [] []
  dot_S128x9216_S9216x256_S128x256_1_0_0_1_n_n_wf : DotDims.WF S128x9216 S9216x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S192x1152.size a ≤ S192x9216.size a
  hwx0_0 : ∀ i : grid0.Coords, EltTy.bits .f32 = 32 ∨ (Rect.block (s := S192x9216) S192x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S192x1152.size a ≤ S192x9216.size a
  hwx0_1 : ∀ i : grid0.Coords, EltTy.bits .f32 = 32 ∨ (Rect.block (s := S192x9216) S192x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S192x1152.size a ≤ S192x9216.size a
  hwx0_2 : ∀ i : grid0.Coords, EltTy.bits .f32 = 32 ∨ (Rect.block (s := S192x9216) S192x1152.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1152x256.size a ≤ S9216x256.size a
  hwx0_3 : ∀ i : grid0.Coords, EltTy.bits .bf16 = 32 ∨ (Rect.block (s := S9216x256) S1152x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1152x192.size a ≤ S9216x192.size a
  hwx0_4 : ∀ i : grid0.Coords, EltTy.bits .bf16 = 32 ∨ (Rect.block (s := S9216x192) S1152x192.size (cc0_transform_4 i) (hinb0_4 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S128x192.size a ≤ S9216x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S9216x192.size a ≤ S9216x192.size a
  hwx1_0 : ∀ i : grid1.Coords, EltTy.bits .bf16 = 32 ∨ (Rect.block (s := S9216x192) S9216x192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9216x256.size a ≤ S9216x256.size a
  hwx1_1 : ∀ i : grid1.Coords, EltTy.bits .bf16 = 32 ∨ (Rect.block (s := S9216x256) S9216x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S192x128.size a ≤ S192x9216.size a
  hwx1_2 : ∀ i : grid1.Coords, EltTy.bits .f32 = 32 ∨ (Rect.block (s := S192x9216) S192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S192x128.size a ≤ S192x9216.size a
  hwx1_3 : ∀ i : grid1.Coords, EltTy.bits .f32 = 32 ∨ (Rect.block (s := S192x9216) S192x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S192x128.size a ≤ S192x9216.size a
  hwx1_4 : ∀ i : grid1.Coords, EltTy.bits .f32 = 32 ∨ (Rect.block (s := S192x9216) S192x128.size (cc1_transform_4 i) (hinb1_4 i)).WholeWords (EltTy.packing .f32)

variable [Facts₀]

def dot_S128x192_S9216x192_S128x9216_1_1_0_0_n_n : DotDims S128x192 S9216x192 S128x9216 where
  lhsContracting := [1]
  rhsContracting := [1]
  lhsNonContracting := [0]
  rhsNonContracting := [0]
  lhsBatch := []
  rhsBatch := []
  wf := dot_S128x192_S9216x192_S128x9216_1_1_0_0_n_n_wf
def dot_S128x9216_S9216x256_S128x256_1_0_0_1_n_n : DotDims S128x9216 S9216x256 S128x256 where
  lhsContracting := [1]
  rhsContracting := [0]
  lhsNonContracting := [0]
  rhsNonContracting := [1]
  lhsBatch := []
  rhsBatch := []
  wf := dot_S128x9216_S9216x256_S128x256_1_0_0_1_n_n_wf

abbrev win0_0 : Pipeline.Window sig grid0 :=
  Pipeline.Window.ofSpec (Memref.whole main_v1) S192x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S192x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S192x1152.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1152x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1152x192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_1) S9216x192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S9216x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S192x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S192x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x192x96x96 : Shape := ⟨4, ![1, 192, 96, 96]⟩
abbrev S192x96x96 : Shape := ⟨3, ![192, 96, 96]⟩
abbrev S192x9216 : Shape := ⟨2, ![192, 9216]⟩
abbrev S9216x9216 : Shape := ⟨2, ![9216, 9216]⟩
abbrev S_ : Shape := ⟨0, ![]⟩
abbrev S9216 : Shape := ⟨1, ![9216]⟩
abbrev S1x9216 : Shape := ⟨2, ![1, 9216]⟩

abbrev nBuf : Space → Nat
  | .hbm => 28
  | .vmem => 0
  | .smem => 0
  | _ => 0

abbrev bufTy : (tb : Table) → Fin (tcTables nBuf tb) → BufTy
  | .hbm, ⟨0, _⟩ => ⟨S1x192x96x96, .f32⟩
  | .hbm, ⟨1, _⟩ => ⟨S1x192x96x96, .f32⟩
  | .hbm, ⟨2, _⟩ => ⟨S1x192x96x96, .f32⟩
  | .hbm, ⟨3, _⟩ => ⟨S1x192x96x96, .f32⟩
  | .hbm, ⟨4, _⟩ => ⟨S1x192x96x96, .f32⟩
  | .hbm, ⟨5, _⟩ => ⟨S192x96x96, .f32⟩
  | .hbm, ⟨6, _⟩ => ⟨S192x9216, .f32⟩
  | .hbm, ⟨7, _⟩ => ⟨S192x96x96, .f32⟩
  | .hbm, ⟨8, _⟩ => ⟨S192x9216, .f32⟩
  | .hbm, ⟨9, _⟩ => ⟨S9216x9216, .f32⟩
  | .hbm, ⟨10, _⟩ => ⟨S_, .f32⟩
  | .hbm, ⟨11, _⟩ => ⟨S9216, .f32⟩
  | .hbm, ⟨12, _⟩ => ⟨S_, .f32⟩
  | .hbm, ⟨13, _⟩ => ⟨S9216, .f32⟩
  | .hbm, ⟨14, _⟩ => ⟨S9216, .f32⟩
  | .hbm, ⟨15, _⟩ => ⟨S1x9216, .f32⟩
  | .hbm, ⟨16, _⟩ => ⟨S9216x9216, .f32⟩
  | .hbm, ⟨17, _⟩ => ⟨S9216x9216, .f32⟩
  | .hbm, ⟨18, _⟩ => ⟨S9216x9216, .f32⟩
  | .hbm, ⟨19, _⟩ => ⟨S_, .f32⟩
  | .hbm, ⟨20, _⟩ => ⟨S9216, .f32⟩
  | .hbm, ⟨21, _⟩ => ⟨S1x9216, .f32⟩
  | .hbm, ⟨22, _⟩ => ⟨S9216x9216, .f32⟩
  | .hbm, ⟨23, _⟩ => ⟨S9216x9216, .f32⟩
  | .hbm, ⟨24, _⟩ => ⟨S192x9216, .f32⟩
  | .hbm, ⟨25, _⟩ => ⟨S1x192x96x96, .f32⟩
  | .hbm, ⟨26, _⟩ => ⟨S1x192x96x96, .f32⟩
  | .hbm, ⟨27, _⟩ => ⟨S1x192x96x96, .f32⟩
  | _, _ => ⟨S1x192x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S1x192x96x96_S192x96x96 : S1x192x96x96.ShapeCasts S192x96x96
  shapeCasts_S192x96x96_S192x9216 : S192x96x96.ShapeCasts S192x9216
  reducesTo_S9216x9216_S9216_d0 : S9216x9216.ReducesTo [0] S9216
  h_S_ : 0 < S_.numel
  bcast_S_S9216 : S_.BroadcastsInDim S9216 (![] : Fin 0 → Fin S9216.rank)
  bcast_S9216_S1x9216_1 : S9216.BroadcastsInDim S1x9216 (![1] : Fin 1 → Fin S1x9216.rank)
  bcast_S1x9216_S9216x9216_0_1 : S1x9216.BroadcastsInDim S9216x9216 (![0, 1] : Fin 2 → Fin S9216x9216.rank)
  shapeCasts_S192x9216_S1x192x96x96 : S192x9216.ShapeCasts S1x192x96x96
  dot_S192x9216_S192x9216_S9216x9216_0_0_1_1_n_n_wf : DotDims.WF S192x9216 S192x9216 S9216x9216 [0] [0] [1] [1] [] []
  dot_S192x9216_S9216x9216_S192x9216_1_0_0_1_n_n_wf : DotDims.WF S192x9216 S9216x9216 S192x9216 [1] [0] [0] [1] [] []

variable [Facts₀]

def dot_S192x9216_S192x9216_S9216x9216_0_0_1_1_n_n : DotDims S192x9216 S192x9216 S9216x9216 where
  lhsContracting := [0]
  rhsContracting := [0]
  lhsNonContracting := [1]
  rhsNonContracting := [1]
  lhsBatch := []
  rhsBatch := []
  wf := dot_S192x9216_S192x9216_S9216x9216_0_0_1_1_n_n_wf
def dot_S192x9216_S9216x9216_S192x9216_1_0_0_1_n_n : DotDims S192x9216 S9216x9216 S192x9216 where
  lhsContracting := [1]
  rhsContracting := [0]
  lhsNonContracting := [0]
  rhsNonContracting := [1]
  lhsBatch := []
  rhsBatch := []
  wf := dot_S192x9216_S9216x9216_S192x9216_1_0_0_1_n_n_wf

class Facts : Prop extends Facts₀ where

variable [Facts]
-- ==== Proof.Prep.lean ====
/-
  The first region: what the preparation body leaves in its two output blocks, and the two arrays the region ends with.

  At a grid point the body reads a [192, 1152] block of the latent features, of their gate and of the refined
  features. It stores the transposed product latent × gate into columns 0–191 of a [1152, 256] block and a constant
  tail into columns 192–255 (a one in column 192, zeros after it), and the transposed refined block into a
  [1152, 192] block. The eight blocks tile the rows, so after the region row `l` of the first array holds
  `latent[c, l] · gate[c, l]` in column `c < 192`, one in column 192 and zero beyond, and row `l` of the second holds
  `refined[c, l]` in column `c`.
-/
import proofs.«423645_j52286931862183_3_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Prep

open Cert.KernelIdeal Cert.KernelIdeal.Gen

/-- The zero offsets of a rank-2 rectangle, as the constant function. -/
theorem hz2 : (![0, 0] : Fin 2 → Nat) = fun _ => 0 := funext fun a => by fin_cases a <;> rfl

/-! ## The three stored values, at an index -/

/-- The transposed product: entry (p, q) is latent × gate at (q, p). -/
theorem pay2_apply (x0 x1 : Vec Ideal S192x1152 .f32) (p : Fin 1152) (q : Fin 192) :
    k0_pay2 (F := Ideal) x0 x1 (ix2 p q) = (x0 (ix2 q p) : EReal) * x1 (ix2 q p) := by
  unfold k0_pay2
  refine (transpose_apply _ _ _ (ix2 p q) (ix2 q p) (fun b => ?_)).trans ?_
  · match b with
    | ⟨0, _⟩ => rfl
    | ⟨1, _⟩ => rfl
  · simp only [truncf_apply, mulf_apply, shapeCast_self]

/-- The transposed refined block: entry (p, q) is refined at (q, p). -/
theorem pay3_apply (x2 : Vec Ideal S192x1152 .f32) (p : Fin 1152) (q : Fin 192) :
    k0_pay3 (F := Ideal) x2 (ix2 p q) = x2 (ix2 q p) := by
  unfold k0_pay3
  refine (transpose_apply _ _ _ (ix2 p q) (ix2 q p) (fun b => ?_)).trans ?_
  · match b with
    | ⟨0, _⟩ => rfl
    | ⟨1, _⟩ => rfl
  · simp only [truncf_apply, shapeCast_self]

/-- A 32-bit word of a number below 2³² equals the zero word exactly when the number is zero. -/
theorem cmpi_eq_zero (n : Nat) (h : n < 4294967296) :
    IntOp.cmpi .eq (BitVec.ofNat 32 n) 0#32 = if n = 0 then 1#1 else 0#1 := by
  unfold IntOp.cmpi
  by_cases hn : n = 0
  · subst hn; rfl
  · rw [if_neg hn]
    have hne : (BitVec.ofNat 32 n == 0#32) = false := by
      rw [beq_eq_false_iff_ne]
      intro e
      have := congrArg BitVec.toNat e
      rw [BitVec.toNat_ofNat, Nat.mod_eq_of_lt (by omega)] at this
      exact hn (by simpa using this)
    show BitVec.ofBool (BitVec.ofNat 32 n == 0#32) = 0#1
    rw [hne]; rfl

/-- The word `0x3F800000` is the real number one. -/
theorem ofBits_one_f32 : Ideal.ofBits .f32 0x3F800000#32 = 1 := by
  simp [Ideal.ofBits, Ideal.ieee, -EReal.coe_mul]; norm_num

/-- The constant tail: one in its first column, zero in the others. -/
theorem pay1_apply (p : Fin 1152) (r : Fin 64) :
    k0_pay1 (F := Ideal) (ix2 p r) = if r.val = 0 then (1 : EReal) else 0 := by
  unfold k0_pay1
  simp only [truncf_apply, select_apply, broadcast_apply]
  show Scalar.select (IntOp.cmpi .eq (iota .tc S1152x64 32 [1] iota_S1152x64_d1_w32 (ix2 p r)) 0#32)
      (Ideal.ofBits .f32 0x3F800000#32) (Ideal.ofBits .f32 0x00000000#32) = _
  rw [iota_single_apply, ofBits_one_f32, Ideal.ofBits_zero_f32]
  show Scalar.select (IntOp.cmpi .eq (BitVec.ofNat 32 r.val) 0#32) (1 : EReal) 0 = _
  rw [cmpi_eq_zero _ (by have := r.isLt; omega)]
  by_cases h : r.val = 0
  · rw [if_pos h, if_pos h]; rfl
  · rw [if_neg h, if_neg h]; rfl

/-! ## What the body leaves in each output block -/

/-- The first output block as one function of the latent and gate blocks: the transposed product in columns
    0–191, then one column of ones, then zeros. -/
def latBlock (x0 x1 : Vec Ideal S192x1152 .f32) : S1152x256.Idx → EReal := fun y =>
  if h : (y 1).val < 192 then
    (x0 (ix2 (⟨(y 1).val, h⟩ : Fin 192) (⟨(y 0).val, (y 0).isLt⟩ : Fin 1152)) : EReal)
      * x1 (ix2 (⟨(y 1).val, h⟩ : Fin 192) (⟨(y 0).val, (y 0).isLt⟩ : Fin 1152))
  else if (y 1).val = 192 then 1 else 0

theorem latBlock_head (x0 x1 : Vec Ideal S192x1152 .f32) (y : S1152x256.Idx) (p : Fin 1152) (q : Fin 192)
    (h0 : (y 0).val = p.val) (h1 : (y 1).val = q.val) :
    latBlock x0 x1 y = (x0 (ix2 q p) : EReal) * x1 (ix2 q p) := by
  unfold latBlock
  rw [dif_pos (by have := q.isLt; omega)]
  have eq : (⟨(y 1).val, by have := q.isLt; omega⟩ : Fin 192) = q := Fin.ext h1
  have ep : (⟨(y 0).val, (y 0).isLt⟩ : Fin 1152) = p := Fin.ext h0
  rw [eq, ep]

theorem latBlock_tail (x0 x1 : Vec Ideal S192x1152 .f32) (y : S1152x256.Idx) (r : Nat) (hy : (y 1).val = 192 + r) :
    latBlock x0 x1 y = if r = 0 then 1 else 0 := by
  unfold latBlock
  rw [dif_neg (by omega)]
  by_cases h : r = 0
  · rw [if_pos (by omega), if_pos h]
  · rw [if_neg (by omega), if_neg h]

/-- The two stores into the first output block together leave `latBlock` of the loaded blocks: each store's value is
    the part of that one function its rectangle names. -/
theorem out3_eq (c : Dev nD) (i : grid0.Coords) (a1 : Memref sig .tc .vmem S192x1152 .f32) (h1 : a1.IsWhole)
    (a2 : Memref sig .tc .vmem S192x1152 .f32) (h2 : a2.IsWhole) (a3 : Memref sig .tc .vmem S192x1152 .f32) (h3 : a3.IsWhole)
    (a4 : Memref sig .tc .vmem S1152x256 .bf16) (h4 : a4.IsWhole) (a5 : Memref sig .tc .vmem S1152x192 .bf16) (h5 : a5.IsWhole)
    (x0 x1 x2 : Vec Ideal S192x1152 .f32) :
    out0_A_3 (F := Ideal) c i a1 h1 a2 h2 a3 h3 a4 h4 a5 h5 x0 x1 x2 = latBlock x0 x1 := by
  unfold out0_A_3
  rw [View.read_writes_eq_canon _ _ _ (cover0_A_3 c i a1 h1 a2 h2 a3 h3 a4 h4 a5 h5 x0 x1 x2)]
  funext y
  refine View.canon_apply_of_pieces (latBlock x0 x1) _ ?_ y (cover0_A_3 c i a1 h1 a2 h2 a3 h3 a4 h4 a5 h5 x0 x1 x2 y)
  unfold kernelRun0_A
  dsimp only
  intro pc hpc x
  rcases List.mem_cons.mp hpc with rfl | hpc
  · obtain ⟨p, r, rfl⟩ : ∃ (p : Fin 1152) (r : Fin 64), x = ix2 p r := ⟨x 0, x 1, eq_ix2 x⟩
    dsimp only
    rw [pay1_apply, latBlock_tail x0 x1 _ r.val (by show 192 + 1 * r.val = 192 + r.val; omega)]
  · obtain rfl := List.mem_singleton.mp hpc
    obtain ⟨p, q, rfl⟩ : ∃ (p : Fin 1152) (q : Fin 192), x = ix2 p q := ⟨x 0, x 1, eq_ix2 x⟩
    dsimp only
    simp only [View.readAt_eq_ld, h1.read_unread, h2.read_unread, View.ld_unit_zero (S := S192x1152) hz2]
    rw [pay2_apply, latBlock_head x0 x1 _ p q (by show 0 + 1 * p.val = p.val; omega) (by show 0 + 1 * q.val = q.val; omega)]

/-- The one store into the second output block leaves the transposed refined block. -/
theorem out4_eq (c : Dev nD) (i : grid0.Coords) (a1 : Memref sig .tc .vmem S192x1152 .f32) (h1 : a1.IsWhole)
    (a2 : Memref sig .tc .vmem S192x1152 .f32) (h2 : a2.IsWhole) (a3 : Memref sig .tc .vmem S192x1152 .f32) (h3 : a3.IsWhole)
    (a4 : Memref sig .tc .vmem S1152x256 .bf16) (h4 : a4.IsWhole) (a5 : Memref sig .tc .vmem S1152x192 .bf16) (h5 : a5.IsWhole)
    (x0 x1 x2 : Vec Ideal S192x1152 .f32) :
    out0_A_4 (F := Ideal) c i a1 h1 a2 h2 a3 h3 a4 h4 a5 h5 x0 x1 x2 = k0_pay3 x2 := by
  unfold out0_A_4
  rw [View.read_writes_eq_canon _ _ _ (cover0_A_4 c i a1 h1 a2 h2 a3 h3 a4 h4 a5 h5 x0 x1 x2)]
  unfold kernelRun0_A
  dsimp only
  rw [View.canon_unit_zero hz2]
  simp only [View.readAt_eq_ld, h3.read_unread, View.ld_unit_zero (S := S192x1152) hz2]

/-! ## The two arrays after the region -/

section Arrays

variable (V : (c : Dev nD) → (b : Ref sig .tc) → Buf (Elt Ideal) ((c : Thread nD τ).loc b))

/-- The flattened latent array, its gate and the flattened refined array as the region finds them, at their literal types. -/
abbrev lat2 (c : Dev nD) : S192x9216.Idx → EReal := V c main_v1
abbrev gate2 (c : Dev nD) : S192x9216.Idx → EReal := V c main_v5
abbrev ref2 (c : Dev nD) : S192x9216.Idx → EReal := V c main_v3

/-- The printed index maps over the grid: the input blocks walk along the position axis, the output blocks along the rows. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the block at point `t` is row `1152 t + p` of the array. -/
def rowAt (t : Fin cfg0.N) (p : Fin 1152) : Fin 9216 :=
  ⟨t.val * 1152 + p.val, by have h8 : cfg0.N = 8 := N_0; have ht := t.isLt; have hp := p.isLt; omega⟩

/-- The latent block at point `t`, read at (q, p): the latent array at (q, 1152 t + p). -/
theorem latent_blk (c : Dev nD) (t : Fin cfg0.N) (q : Fin 192) (p : Fin 1152) :
    (iblk0 V c 0 t : Vec Ideal S192x1152 .f32) (ix2 q p) = lat2 V c (ix2 q (rowAt t p)) := by
  obtain ⟨e0, e1, -⟩ := idx_facts t
  show V c main_v1 (((cfg0.win 0).blk t).view.emb (ix2 q p)) = _
  refine congrArg (V c main_v1) (funext fun a => Fin.ext ?_)
  match a with
  | ⟨0, _⟩ => show win0_0.index t (0 : Fin 2) * 192 + 1 * q.val = q.val; rw [e0]; omega
  | ⟨1, _⟩ => show win0_0.index t (1 : Fin 2) * 1152 + 1 * p.val = t.val * 1152 + p.val; rw [e1]; omega

/-- The gate block at point `t`, read at (q, p): the gate array at (q, 1152 t + p). -/
theorem gate_blk (c : Dev nD) (t : Fin cfg0.N) (q : Fin 192) (p : Fin 1152) :
    (iblk0 V c 1 t : Vec Ideal S192x1152 .f32) (ix2 q p) = gate2 V c (ix2 q (rowAt t p)) := by
  obtain ⟨-, -, e0, e1, -⟩ := idx_facts t
  show V c main_v5 (((cfg0.win 1).blk t).view.emb (ix2 q p)) = _
  refine congrArg (V c main_v5) (funext fun a => Fin.ext ?_)
  match a with
  | ⟨0, _⟩ => show win0_1.index t (0 : Fin 2) * 192 + 1 * q.val = q.val; rw [e0]; omega
  | ⟨1, _⟩ => show win0_1.index t (1 : Fin 2) * 1152 + 1 * p.val = t.val * 1152 + p.val; rw [e1]; omega

/-- The refined block at point `t`, read at (q, p): the refined array at (q, 1152 t + p). -/
theorem refined_blk (c : Dev nD) (t : Fin cfg0.N) (q : Fin 192) (p : Fin 1152) :
    (iblk0 V c 2 t : Vec Ideal S192x1152 .f32) (ix2 q p) = ref2 V c (ix2 q (rowAt t p)) := by
  obtain ⟨-, -, -, -, e0, e1, -⟩ := idx_facts t
  show V c main_v3 (((cfg0.win 2).blk t).view.emb (ix2 q p)) = _
  refine congrArg (V c main_v3) (funext fun a => Fin.ext ?_)
  match a with
  | ⟨0, _⟩ => show win0_2.index t (0 : Fin 2) * 192 + 1 * q.val = q.val; rw [e0]; omega
  | ⟨1, _⟩ => show win0_2.index t (1 : Fin 2) * 1152 + 1 * p.val = t.val * 1152 + p.val; rw [e1]; omega

/-- The first array after the region: row `l` holds latent × gate at (c, l) in column `c < 192`, one in column 192,
    zero beyond. -/
def latT (c : Dev nD) : S9216x256.Idx → EReal := fun y =>
  if h : (y 1).val < 192 then
    lat2 V c (ix2 (⟨(y 1).val, h⟩ : Fin 192) (⟨(y 0).val, (y 0).isLt⟩ : Fin 9216))
      * gate2 V c (ix2 (⟨(y 1).val, h⟩ : Fin 192) (⟨(y 0).val, (y 0).isLt⟩ : Fin 9216))
  else if (y 1).val = 192 then 1 else 0

/-- The second array after the region: row `l`, column `c` holds refined at (c, l). -/
def refT (c : Dev nD) : S9216x192.Idx → EReal := fun y =>
  ref2 V c (ix2 (⟨(y 1).val, (y 1).isLt⟩ : Fin 192) (⟨(y 0).val, (y 0).isLt⟩ : Fin 9216))

/-- What point `t` writes back into the first array is its block of `latT`. -/
theorem flushed3 (c : Dev nD) (t : Fin cfg0.N) :
    (dat0 V c).flushed 3 t = ((cfg0.win 3).blk t).view.read (Elt Ideal) (latT V c) := by
  show (cfg0.win 3).cut (grid0.coords t) ((dat0 V c).after 3 t) = _
  rw [after0_3]
  unfold outsAt0
  dsimp only
  rw [out3_eq]
  obtain ⟨-, -, -, -, -, -, e0, e1, -⟩ := idx_facts t
  funext j
  show latBlock (iblk0 V c 0 t) (iblk0 V c 1 t) j = latT V c (((cfg0.win 3).blk t).view.emb j)
  have hj0 : (j 0).val < 1152 := (j 0).isLt
  have hj1 : (j 1).val < 256 := (j 1).isLt
  have k0 : ((((cfg0.win 3).blk t).view.emb j) 0).val = t.val * 1152 + (j 0).val := by
    show win0_3.index t (0 : Fin 2) * 1152 + 1 * (j 0).val = _; rw [e0]; omega
  have k1 : ((((cfg0.win 3).blk t).view.emb j) 1).val = (j 1).val := by
    show win0_3.index t (1 : Fin 2) * 256 + 1 * (j 1).val = _; rw [e1]; omega
  by_cases h : (j 1).val < 192
  · rw [latBlock_head _ _ j ⟨(j 0).val, hj0⟩ ⟨(j 1).val, h⟩ rfl rfl, latent_blk, gate_blk]
    unfold latT
    rw [dif_pos (by rw [k1]; exact h)]
    have eq : (⟨((((cfg0.win 3).blk t).view.emb j) 1).val, by rw [k1]; exact h⟩ : Fin 192) = ⟨(j 1).val, h⟩ := Fin.ext k1
    have ep : (⟨((((cfg0.win 3).blk t).view.emb j) 0).val, ((((cfg0.win 3).blk t).view.emb j) 0).isLt⟩ : Fin 9216) = rowAt t ⟨(j 0).val, hj0⟩ := Fin.ext k0
    rw [eq, ep]
  · rw [latBlock_tail _ _ j ((j 1).val - 192) (by omega)]
    unfold latT
    rw [dif_neg (by rw [k1]; exact h)]
    by_cases h2 : (j 1).val = 192
    · rw [if_pos (by omega), if_pos (by rw [k1]; exact h2)]
    · rw [if_neg (by omega), if_neg (by rw [k1]; exact h2)]

/-- What point `t` writes back into the second array is its block of `refT`. -/
theorem flushed4 (c : Dev nD) (t : Fin cfg0.N) :
    (dat0 V c).flushed 4 t = ((cfg0.win 4).blk t).view.read (Elt Ideal) (refT V c) := by
  show (cfg0.win 4).cut (grid0.coords t) ((dat0 V c).after 4 t) = _
  rw [after0_4]
  unfold outsAt0
  dsimp only
  rw [out4_eq]
  obtain ⟨-, -, -, -, -, -, -, -, e0, e1⟩ := idx_facts t
  funext j
  obtain ⟨p, q, rfl⟩ : ∃ (p : Fin 1152) (q : Fin 192), j = ix2 p q := ⟨j 0, j 1, eq_ix2 j⟩
  show k0_pay3 (iblk0 V c 2 t) (ix2 p q) = refT V c (((cfg0.win 4).blk t).view.emb (ix2 p q))
  rw [pay3_apply, refined_blk]
  unfold refT
  refine congrArg (ref2 V c) (funext fun a => Fin.ext ?_)
  match a with
  | ⟨0, _⟩ => show q.val = win0_4.index t (1 : Fin 2) * 192 + 1 * q.val; rw [e1]; omega
  | ⟨1, _⟩ => show t.val * 1152 + p.val = win0_4.index t (0 : Fin 2) * 1152 + 1 * p.val; rw [e0]; omega

/-- An index of the first array is in point `t`'s block iff each coordinate is in the block's range. -/
theorem mem_blk3 (t : Fin cfg0.N) (i : S9216x256.Idx) :
    i ∈ ((cfg0.win 3).blk t).view.set ↔ ∀ a : Fin 2, win0_3.index t a * S1152x256.size a ≤ (i a).val ∧ (i a).val < win0_3.index t a * S1152x256.size a + S1152x256.size a := by
  show i ∈ ((View.whole main_v8_0).slice (win0_3.rect t)).set ↔ _
  rw [View.set_slice_whole, Rect.mem_set_unit]
  exact Iff.rfl

theorem mem_blk4 (t : Fin cfg0.N) (i : S9216x192.Idx) :
    i ∈ ((cfg0.win 4).blk t).view.set ↔ ∀ a : Fin 2, win0_4.index t a * S1152x192.size a ≤ (i a).val ∧ (i a).val < win0_4.index t a * S1152x192.size a + S1152x192.size a := by
  show i ∈ ((View.whole main_v8_1).slice (win0_4.rect t)).set ↔ _
  rw [View.set_slice_whole, Rect.mem_set_unit]
  exact Iff.rfl

/-- The point whose block holds row `l`: `l / 1152`. -/
def pointOf (l : Nat) (hl : l < 9216) : Fin cfg0.N := ⟨l / 1152, by have h8 : cfg0.N = 8 := N_0; omega⟩

/-- So the first array ends holding `latT`: the eight row blocks tile it. -/
theorem latT_final (c : Dev nD) : (dat0 V c).arrAt 3 cfg0.N = latT V c :=
  (dat0 V c).arrAt_eq_of_cover 3 (latT V c) (fun t _ => flushed3 V c t) fun i => by
    have hi0 : (i 0).val < 9216 := (i 0).isLt
    have hi1 : (i 1).val < 256 := (i 1).isLt
    refine ⟨pointOf (i 0).val hi0, flush0_3 _, ?_⟩
    rw [mem_blk3]
    obtain ⟨-, -, -, -, -, -, e0, e1, -⟩ := idx_facts (pointOf (i 0).val hi0)
    have ht : (pointOf (i 0).val hi0).val = (i 0).val / 1152 := rfl
    intro a
    match a with
    | ⟨0, _⟩ => show win0_3.index _ (0 : Fin 2) * 1152 ≤ (i 0).val ∧ (i 0).val < win0_3.index _ (0 : Fin 2) * 1152 + 1152; rw [e0, ht]; omega
    | ⟨1, _⟩ => show win0_3.index _ (1 : Fin 2) * 256 ≤ (i 1).val ∧ (i 1).val < win0_3.index _ (1 : Fin 2) * 256 + 256; rw [e1]; omega

/-- And the second ends holding `refT`. -/
theorem refT_final (c : Dev nD) : (dat0 V c).arrAt 4 cfg0.N = refT V c :=
  (dat0 V c).arrAt_eq_of_cover 4 (refT V c) (fun t _ => flushed4 V c t) fun i => by
    have hi0 : (i 0).val < 9216 := (i 0).isLt
    have hi1 : (i 1).val < 192 := (i 1).isLt
    refine ⟨pointOf (i 0).val hi0, flush0_4 _, ?_⟩
    rw [mem_blk4]
    obtain ⟨-, -, -, -, -, -, -, -, e0, e1⟩ := idx_facts (pointOf (i 0).val hi0)
    have ht : (pointOf (i 0).val hi0).val = (i 0).val / 1152 := rfl
    intro a
    match a with
    | ⟨0, _⟩ => show win0_4.index _ (0 : Fin 2) * 1152 ≤ (i 0).val ∧ (i 0).val < win0_4.index _ (0 : Fin 2) * 1152 + 1152; rw [e0, ht]; omega
    | ⟨1, _⟩ => show win0_4.index _ (1 : Fin 2) * 192 ≤ (i 1).val ∧ (i 1).val < win0_4.index _ (1 : Fin 2) * 192 + 192; rw [e1]; omega

end Arrays

end Cert.KernelIdeal.Prep

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Attn.lean ====
/-
  The second region: what the attention body stores at a grid point, and the array the region ends with.

  At point t the body holds the whole key array K [9216, 192] and the whole value array U [9216, 256], and a
  [192, 128] block of the refined features and of their gate. Its queries are rows 128 t … 128 t + 127 of U's first
  192 columns. For query row j it forms the scores `s j l = ∑ c, Q j c · K l c` against every key l, their maximum over
  l (from −∞), the weights `w j l = exp (s j l − max)`, and the weighted sums `∑ l, w j l · U l c` over every column c
  of U. Column 192 of U is constant one, so that column's weighted sum is the weights' total; the body takes its
  reciprocal once and multiplies the first 192 weighted sums by it, transposes, and adds refined × gate. The 72 column
  blocks tile the result, so the array ends as one function (`outFn`) of U, K, the refined array and its gate.
-/
import proofs.«423645_j52286931862183_3_alg».proof.Proof.Gen.KernelIdeal.Frame
import proofs.«423645_j52286931862183_3_alg».proof.Proof.LibColumns
import proofs.«423645_j52286931862183_3_alg».proof.Proof.Prep
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Attn

open Cert.KernelIdeal Cert.KernelIdeal.Gen Cert.Lib.Columns

/-! ## The two matrix products at an entry -/

/-- The score product's dimension numbers: both operands contract their axis 1. -/
abbrev scoreDot := dot_S128x192_S9216x192_S128x9216_1_1_0_0_n_n

theorem lhs_score_0 (i : S128x9216.Idx) (q : scoreDot.contr.Idx) : (scoreDot.lhsIdx i q 0).val = (i 0).val := by
  unfold DotDims.lhsIdx
  rw [dif_neg (show ¬(0 : Fin S128x192.rank) ∈ dot_S128x192_S9216x192_S128x9216_1_1_0_0_n_n.lhsBatch by decide), dif_pos (show (0 : Fin S128x192.rank) ∈ dot_S128x192_S9216x192_S128x9216_1_1_0_0_n_n.lhsNonContracting by decide)]
  rfl
theorem lhs_score_1 (i : S128x9216.Idx) (q : scoreDot.contr.Idx) : (scoreDot.lhsIdx i q 1).val = (q ⟨0, by decide⟩).val :=
  dot_S128x192_S9216x192_S128x9216_1_1_0_0_n_n.lhsIdx_val_of_single rfl i q
theorem rhs_score_0 (i : S128x9216.Idx) (q : scoreDot.contr.Idx) : (scoreDot.rhsIdx i q 0).val = (i 1).val := by
  unfold DotDims.rhsIdx
  rw [dif_neg (show ¬(0 : Fin S9216x192.rank) ∈ dot_S128x192_S9216x192_S128x9216_1_1_0_0_n_n.rhsBatch by decide), dif_pos (show (0 : Fin S9216x192.rank) ∈ dot_S128x192_S9216x192_S128x9216_1_1_0_0_n_n.rhsNonContracting by decide)]
  rfl
theorem rhs_score_1 (i : S128x9216.Idx) (q : scoreDot.contr.Idx) : (scoreDot.rhsIdx i q 1).val = (q ⟨0, by decide⟩).val :=
  dot_S128x192_S9216x192_S128x9216_1_1_0_0_n_n.rhsIdx_val_of_single rfl i q

/-- The score product into a zero accumulator, at (j, l): the sum over the 192 channels of row j of the left operand times row l of the right. -/
theorem score_matmul (a : FVec Ideal S128x192 .bf16) (b : FVec Ideal S9216x192 .bf16) (j : Fin 128) (l : Fin 9216) :
    matmul scoreDot none a b (constant S128x9216 .f32 0x00000000#32) (ix2 j l)
      = ∑ k : Fin 192, (a (ix2 j k) : EReal) * b (ix2 l k) := by
  simp only [matmul]
  rw [Ideal.matmul_constant_zero_apply, ← Equiv.sum_comp (ValueIdx.contrEquiv1 scoreDot 192 rfl rfl).symm]
  refine Finset.sum_congr rfl fun k _ => ?_
  have hk := ValueIdx.contrEquiv1_symm_val scoreDot 192 rfl rfl k
  have el : scoreDot.lhsIdx (ix2 j l) ((ValueIdx.contrEquiv1 scoreDot 192 rfl rfl).symm k) = ix2 j k := funext fun ax => Fin.ext (by
    match ax with
    | ⟨0, _⟩ => exact lhs_score_0 _ _
    | ⟨1, _⟩ => exact (lhs_score_1 _ _).trans hk)
  have er : scoreDot.rhsIdx (ix2 j l) ((ValueIdx.contrEquiv1 scoreDot 192 rfl rfl).symm k) = ix2 l k := funext fun ax => Fin.ext (by
    match ax with
    | ⟨0, _⟩ => exact rhs_score_0 _ _
    | ⟨1, _⟩ => exact (rhs_score_1 _ _).trans hk)
  rw [el, er]

/-- The context product's dimension numbers: the left operand contracts its axis 1, the right its axis 0. -/
abbrev ctxDot := dot_S128x9216_S9216x256_S128x256_1_0_0_1_n_n

theorem lhs_ctx_0 (i : S128x256.Idx) (q : ctxDot.contr.Idx) : (ctxDot.lhsIdx i q 0).val = (i 0).val := by
  unfold DotDims.lhsIdx
  rw [dif_neg (show ¬(0 : Fin S128x9216.rank) ∈ dot_S128x9216_S9216x256_S128x256_1_0_0_1_n_n.lhsBatch by decide), dif_pos (show (0 : Fin S128x9216.rank) ∈ dot_S128x9216_S9216x256_S128x256_1_0_0_1_n_n.lhsNonContracting by decide)]
  rfl
theorem lhs_ctx_1 (i : S128x256.Idx) (q : ctxDot.contr.Idx) : (ctxDot.lhsIdx i q 1).val = (q ⟨0, by decide⟩).val :=
  dot_S128x9216_S9216x256_S128x256_1_0_0_1_n_n.lhsIdx_val_of_single rfl i q
theorem rhs_ctx_0 (i : S128x256.Idx) (q : ctxDot.contr.Idx) : (ctxDot.rhsIdx i q 0).val = (q ⟨0, by decide⟩).val :=
  dot_S128x9216_S9216x256_S128x256_1_0_0_1_n_n.rhsIdx_val_of_single rfl i q
theorem rhs_ctx_1 (i : S128x256.Idx) (q : ctxDot.contr.Idx) : (ctxDot.rhsIdx i q 1).val = (i 1).val := by
  unfold DotDims.rhsIdx
  rw [dif_neg (show ¬(1 : Fin S9216x256.rank) ∈ dot_S128x9216_S9216x256_S128x256_1_0_0_1_n_n.rhsBatch by decide), dif_pos (show (1 : Fin S9216x256.rank) ∈ dot_S128x9216_S9216x256_S128x256_1_0_0_1_n_n.rhsNonContracting by decide)]
  rfl

/-- The context product into a zero accumulator, at (j, c): the sum over the 9216 keys of the weights of row j times column c of the right operand. -/
theorem ctx_matmul (p : FVec Ideal S128x9216 .bf16) (v : FVec Ideal S9216x256 .bf16) (j : Fin 128) (c : Fin 256) :
    matmul ctxDot none p v (constant S128x256 .f32 0x00000000#32) (ix2 j c)
      = ∑ l : Fin 9216, (p (ix2 j l) : EReal) * v (ix2 l c) := by
  simp only [matmul]
  rw [Ideal.matmul_constant_zero_apply, ← Equiv.sum_comp (ValueIdx.contrEquiv1 ctxDot 9216 rfl rfl).symm]
  refine Finset.sum_congr rfl fun k _ => ?_
  have hk := ValueIdx.contrEquiv1_symm_val ctxDot 9216 rfl rfl k
  have el : ctxDot.lhsIdx (ix2 j c) ((ValueIdx.contrEquiv1 ctxDot 9216 rfl rfl).symm k) = ix2 j k := funext fun ax => Fin.ext (by
    match ax with
    | ⟨0, _⟩ => exact lhs_ctx_0 _ _
    | ⟨1, _⟩ => exact (lhs_ctx_1 _ _).trans hk)
  have er : ctxDot.rhsIdx (ix2 j c) ((ValueIdx.contrEquiv1 ctxDot 9216 rfl rfl).symm k) = ix2 k c := funext fun ax => Fin.ext (by
    match ax with
    | ⟨0, _⟩ => exact (rhs_ctx_0 _ _).trans hk
    | ⟨1, _⟩ => exact rhs_ctx_1 _ _)
  rw [el, er]

/-! ## The row maximum -/

/-- The word of negative infinity is the bottom of the extended reals. -/
theorem neg_inf_word : Ideal.ofBits .f32 0xFF800000#32 = (⊥ : EReal) := by simp [Ideal.ofBits, Ideal.ieee]

/-- Over result index j, the source index with l inserted on axis 1 is (j, l). -/
theorem row_lift (j : Fin 128) (l : Fin 9216) : (reduces_S128x9216_S128 : S128x9216.Reduces [1] S128).lift (ix1 j) l = ix2 j l :=
  funext fun ax => Fin.ext (by match ax with | ⟨0, _⟩ => rfl | ⟨1, _⟩ => rfl)

/-- The maximum over a row, from negative infinity: the fold of max from ⊥ over the row's entries. -/
theorem row_max (s : FVec Ideal S128x9216 .f32) (j : Fin 128) :
    multiReduction .maximumf [1] S128 s 0xFF800000#32 reduces_S128x9216_S128 (.inl rfl) rfl (ix1 j)
      = Finset.univ.fold max ⊥ fun l : Fin 9216 => (s (ix2 j l) : EReal) := by
  refine (Ideal.multiReduction_maximumf_single s 0xFF800000#32 reduces_S128x9216_S128 (.inl rfl) rfl (ix1 j)).trans ?_
  rw [Ideal.ofBits_def, neg_inf_word]
  refine Finset.fold_congr fun l _ => ?_
  exact congrArg s (row_lift j l)

/-! ## The layout steps of the body, at an entry -/

/-- The row maxima kept as one column. -/
theorem keep_col (m : FVec Ideal S128 .f32) (j : Fin 128) (u : Fin 1) :
    shapeCast S128x1 m shapeCasts_S128_S128x1 (ix2 j u) = m (ix1 j) := shapeCast_a_a1_apply m _ j u

/-- That column laid along every key. -/
theorem along_keys (z : FVec Ideal S128x1 .f32) (j : Fin 128) (l : Fin 9216) :
    broadcastTo S128x9216 z broadcasts_S128x1_S128x9216 (ix2 j l) = z (ix2 j (0 : Fin 1)) := broadcastTo_a1_ab_apply z _ j l

/-- The reciprocal column laid along every channel. -/
theorem along_chans (z : FVec Ideal S128x1 .f32) (j : Fin 128) (c : Fin 192) :
    broadcastTo S128x192 z broadcasts_S128x1_S128x192 (ix2 j c) = z (ix2 j (0 : Fin 1)) := broadcastTo_a1_ab_apply z _ j c

/-- Columns 0–191 of the product. -/
theorem head_cols (y : FVec Ideal S128x256 .f32) (j : Fin 128) (c : Fin 192) :
    extractStridedSlice S128x192 ![0, 0] y slices_S128x256_o0_0_S128x192 (ix2 j c)
      = y (ix2 j (⟨c.val, by have := c.isLt; omega⟩ : Fin 256)) :=
  extractStridedSlice_apply _ y _ (ix2 j c) _ fun a => by
    match a with
    | ⟨0, _⟩ => show j.val = 0 + j.val; omega
    | ⟨1, _⟩ => show c.val = 0 + c.val; omega

/-- Column 192 of the product. -/
theorem ones_col (y : FVec Ideal S128x256 .f32) (j : Fin 128) (u : Fin 1) :
    extractStridedSlice S128x1 ![0, 192] y slices_S128x256_o0_192_S128x1 (ix2 j u)
      = y (ix2 j (⟨192, by decide⟩ : Fin 256)) :=
  extractStridedSlice_apply _ y _ (ix2 j u) _ fun a => by
    match a with
    | ⟨0, _⟩ => show j.val = 0 + j.val; omega
    | ⟨1, _⟩ => show 192 = 192 + u.val; omega

/-- The final transposition. -/
theorem swap (x : FVec Ideal S128x192 .f32) (c : Fin 192) (j : Fin 128) :
    transpose S192x128 [1, 0] x transposes_S128x192_p1_0_S192x128 (ix2 c j) = x (ix2 j c) :=
  transpose_apply _ x _ (ix2 c j) (ix2 j c) fun b => by
    match b with
    | ⟨0, _⟩ => rfl
    | ⟨1, _⟩ => rfl

/-! ## The stored value at an entry -/

section Payload

variable (q : FVec Ideal S128x192 .bf16) (k : FVec Ideal S9216x192 .bf16) (v : FVec Ideal S9216x256 .bf16)
  (r g : FVec Ideal S192x128 .f32)

/-- The score of key `l` for query row `j`. -/
def sc (j : Fin 128) (l : Fin 9216) : EReal := ∑ c : Fin 192, (q (ix2 j c) : EReal) * k (ix2 l c)
/-- The largest score of query row `j`. -/
def tp (j : Fin 128) : EReal := Finset.univ.fold max ⊥ fun l : Fin 9216 => sc q k j l
/-- The weight of key `l` for query row `j`. -/
def wt (j : Fin 128) (l : Fin 9216) : EReal := Ideal.exp (sc q k j l - tp q k j)
/-- The weighted sum of column `c` of the value array. -/
def acc (j : Fin 128) (c : Fin 256) : EReal := ∑ l : Fin 9216, wt q k j l * (v (ix2 l c) : EReal)

/-- The body's stages as whole vectors: the scores, the row maxima, the weights, the weighted sums. -/
abbrev scoresV : FVec Ideal S128x9216 .f32 := matmul scoreDot none q k (constant S128x9216 .f32 0x00000000#32)
abbrev topV : FVec Ideal S128 .f32 :=
  multiReduction .maximumf [1] S128 (scoresV q k) 0xFF800000#32 reduces_S128x9216_S128 (.inl rfl) rfl
abbrev weightsV : FVec Ideal S128x9216 .bf16 :=
  truncf .bf16 (exp (subf (scoresV q k)
    (broadcastTo S128x9216 (shapeCast S128x1 (topV q k) shapeCasts_S128_S128x1) broadcasts_S128x1_S128x9216))) bitsLt_bf16_f32
abbrev prodV : FVec Ideal S128x256 .f32 := matmul ctxDot none (weightsV q k) v (constant S128x256 .f32 0x00000000#32)

theorem scoresV_at (j : Fin 128) (l : Fin 9216) : scoresV q k (ix2 j l) = sc q k j l := score_matmul q k j l

theorem topV_at (j : Fin 128) : topV q k (ix1 j) = tp q k j :=
  (row_max (scoresV q k) j).trans (Finset.fold_congr fun l _ => scoresV_at q k j l)

theorem weightsV_at (j : Fin 128) (l : Fin 9216) : weightsV q k (ix2 j l) = wt q k j l := by
  show Ideal.exp (scoresV q k (ix2 j l)
      - broadcastTo S128x9216 (shapeCast S128x1 (topV q k) shapeCasts_S128_S128x1) broadcasts_S128x1_S128x9216 (ix2 j l)) = _
  rw [along_keys, keep_col, scoresV_at, topV_at]
  rfl

theorem prodV_at (j : Fin 128) (c : Fin 256) : prodV q k v (ix2 j c) = acc q k v j c :=
  (ctx_matmul (weightsV q k) v j c).trans (Finset.sum_congr rfl fun l _ => by rw [weightsV_at])

/-- The word `0x3F800000` is the real number one. -/
theorem one_word : Ideal.ofBits .f32 0x3F800000#32 = 1 := by
  simp [Ideal.ofBits, Ideal.ieee, -EReal.coe_mul]; norm_num

/-- The stored value at (c, j): refined × its gate, plus the weighted sum of channel c scaled once by the reciprocal of
    the weights' total, which is the weighted sum of the value array's column of ones. -/
theorem pay_apply (c : Fin 192) (j : Fin 128) :
    k1_pay1 (F := Ideal) q k v r g (ix2 c j)
      = (r (ix2 c j) : EReal) * g (ix2 c j)
        + acc q k v j (⟨c.val, by have := c.isLt; omega⟩ : Fin 256) * Ideal.div 1 (acc q k v j (⟨192, by decide⟩ : Fin 256)) := by
  unfold k1_pay1
  dsimp only
  simp only [addf_apply, mulf_apply, shapeCast_self]
  refine congrArg (r (ix2 c j) * g (ix2 c j) + ·) ?_
  refine (swap _ c j).trans ?_
  show (extractStridedSlice S128x192 ![0, 0] (prodV q k v) slices_S128x256_o0_0_S128x192 (ix2 j c) : EReal)
      * broadcastTo S128x192 (divf (broadcast S128x1 (FloatOps.ofBits .f32 0x3F800000#32))
          (extractStridedSlice S128x1 ![0, 192] (prodV q k v) slices_S128x256_o0_192_S128x1)) broadcasts_S128x1_S128x192 (ix2 j c) = _
  rw [head_cols, along_chans, prodV_at]
  show _ * Ideal.div (Ideal.ofBits .f32 0x3F800000#32)
      (extractStridedSlice S128x1 ![0, 192] (prodV q k v) slices_S128x256_o0_192_S128x1 (ix2 j (0 : Fin 1))) = _
  rw [ones_col, prodV_at, one_word]

end Payload

/-! ## The body's function without the tiling -/

section Global

variable (vv : S9216x256.Idx → EReal) (kk : S9216x192.Idx → EReal)

/-- The score of key `l` for query position `m`: the query row is row `m` of the value array's first 192 columns. -/
def gsc (m l : Fin 9216) : EReal :=
  ∑ c : Fin 192, vv (ix2 m (⟨c.val, by have := c.isLt; omega⟩ : Fin 256)) * kk (ix2 l c)
/-- The largest score of query position `m`. -/
def gtp (m : Fin 9216) : EReal := Finset.univ.fold max ⊥ fun l : Fin 9216 => gsc vv kk m l
/-- The weight of key `l` for query position `m`. -/
def gwt (m l : Fin 9216) : EReal := Ideal.exp (gsc vv kk m l - gtp vv kk m)
/-- The weighted sum of column `c` of the value array, for query position `m`. -/
def gacc (m : Fin 9216) (c : Fin 256) : EReal := ∑ l : Fin 9216, gwt vv kk m l * vv (ix2 l c)

/-- The region's result array as one function of the value array, the key array, the refined array and its gate. -/
def outFn (rr gg : S192x9216.Idx → EReal) : S192x9216.Idx → EReal := fun y =>
  rr y * gg y
    + gacc vv kk (⟨(y 1).val, (y 1).isLt⟩ : Fin 9216) (⟨(y 0).val, by have h : (y 0).val < 192 := (y 0).isLt; omega⟩ : Fin 256)
      * Ideal.div 1 (gacc vv kk (⟨(y 1).val, (y 1).isLt⟩ : Fin 9216) (⟨192, by decide⟩ : Fin 256))

/-- A row block of queries sees the same weighted sums as its rows do in the whole array. -/
theorem acc_eq_gacc (q : FVec Ideal S128x192 .bf16) (k : FVec Ideal S9216x192 .bf16) (v : FVec Ideal S9216x256 .bf16)
    (j : Fin 128) (m : Fin 9216)
    (hq : ∀ c : Fin 192, (q (ix2 j c) : EReal) = vv (ix2 m (⟨c.val, by have := c.isLt; omega⟩ : Fin 256)))
    (hk : ∀ i, (k i : EReal) = kk i) (hv : ∀ i, (v i : EReal) = vv i) (c : Fin 256) :
    acc q k v j c = gacc vv kk m c := by
  have hs : ∀ l, sc q k j l = gsc vv kk m l := fun l => by
    unfold sc gsc
    exact Finset.sum_congr rfl fun c' _ => by rw [hq, hk]
  have ht : tp q k j = gtp vv kk m := by
    unfold tp gtp
    exact Finset.fold_congr fun l _ => hs l
  unfold acc gacc
  refine Finset.sum_congr rfl fun l _ => ?_
  unfold wt gwt
  rw [hs, ht, hv]

end Global

/-! ## The result array after the region -/

section Arrays

variable (V : (c : Dev nD) → (b : Ref sig .tc) → Buf (Elt Ideal) ((c : Thread nD τ).loc b))

/-- The region's four input arrays as it finds them, at their literal types. -/
abbrev keys (c : Dev nD) : S9216x192.Idx → EReal := V c main_v8_1
abbrev vals (c : Dev nD) : S9216x256.Idx → EReal := V c main_v8_0
abbrev refd (c : Dev nD) : S192x9216.Idx → EReal := V c main_v3
abbrev gate5 (c : Dev nD) : S192x9216.Idx → EReal := V c main_v7

/-- The blocks at a point, at their literal types. -/
abbrev keysB (c : Dev nD) (t : Fin cfg1.N) : FVec Ideal S9216x192 .bf16 := iblk1 V c 0 t
abbrev valsB (c : Dev nD) (t : Fin cfg1.N) : FVec Ideal S9216x256 .bf16 := iblk1 V c 1 t
abbrev refdB (c : Dev nD) (t : Fin cfg1.N) : FVec Ideal S192x128 .f32 := iblk1 V c 2 t
abbrev gateB (c : Dev nD) (t : Fin cfg1.N) : FVec Ideal S192x128 .f32 := iblk1 V c 3 t

/-- The printed index maps over the grid: the key and value arrays are one block each, the others walk along the positions. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val
    ∧ ((grid1.coords t) 0).val = t.val :=
  (by decide +kernel : ∀ t : Fin grid1.N, _)

/-- Column `j` of the block at point `t` is position `128 t + j`. -/
def colAt (t : Fin cfg1.N) (j : Fin 128) : Fin 9216 :=
  ⟨t.val * 128 + j.val, by have h72 : cfg1.N = 72 := N_1; have ht := t.isLt; have hj := j.isLt; omega⟩

theorem keysB_at (c : Dev nD) (t : Fin cfg1.N) (i : S9216x192.Idx) : (keysB V c t i : EReal) = keys V c i := by
  obtain ⟨e0, e1, -⟩ := idx_facts t
  show V c main_v8_1 (((cfg1.win 0).blk t).view.emb i) = _
  refine congrArg (keys V c) (funext fun a => Fin.ext ?_)
  match a with
  | ⟨0, _⟩ => show win1_0.index t (0 : Fin 2) * 9216 + 1 * (i 0).val = (i 0).val; rw [e0]; omega
  | ⟨1, _⟩ => show win1_0.index t (1 : Fin 2) * 192 + 1 * (i 1).val = (i 1).val; rw [e1]; omega

theorem valsB_at (c : Dev nD) (t : Fin cfg1.N) (i : S9216x256.Idx) : (valsB V c t i : EReal) = vals V c i := by
  obtain ⟨-, -, e0, e1, -⟩ := idx_facts t
  show V c main_v8_0 (((cfg1.win 1).blk t).view.emb i) = _
  refine congrArg (vals V c) (funext fun a => Fin.ext ?_)
  match a with
  | ⟨0, _⟩ => show win1_1.index t (0 : Fin 2) * 9216 + 1 * (i 0).val = (i 0).val; rw [e0]; omega
  | ⟨1, _⟩ => show win1_1.index t (1 : Fin 2) * 256 + 1 * (i 1).val = (i 1).val; rw [e1]; omega

theorem refdB_at (c : Dev nD) (t : Fin cfg1.N) (ch : Fin 192) (j : Fin 128) :
    (refdB V c t (ix2 ch j) : EReal) = refd V c (ix2 ch (colAt t j)) := by
  obtain ⟨-, -, -, -, e0, e1, -⟩ := idx_facts t
  show V c main_v3 (((cfg1.win 2).blk t).view.emb (ix2 ch j)) = _
  refine congrArg (refd V c) (funext fun a => Fin.ext ?_)
  match a with
  | ⟨0, _⟩ => show win1_2.index t (0 : Fin 2) * 192 + 1 * ch.val = ch.val; rw [e0]; omega
  | ⟨1, _⟩ => show win1_2.index t (1 : Fin 2) * 128 + 1 * j.val = t.val * 128 + j.val; rw [e1]; omega

theorem gateB_at (c : Dev nD) (t : Fin cfg1.N) (ch : Fin 192) (j : Fin 128) :
    (gateB V c t (ix2 ch j) : EReal) = gate5 V c (ix2 ch (colAt t j)) := by
  obtain ⟨-, -, -, -, -, -, e0, e1, -⟩ := idx_facts t
  show V c main_v7 (((cfg1.win 3).blk t).view.emb (ix2 ch j)) = _
  refine congrArg (gate5 V c) (funext fun a => Fin.ext ?_)
  match a with
  | ⟨0, _⟩ => show win1_3.index t (0 : Fin 2) * 192 + 1 * ch.val = ch.val; rw [e0]; omega
  | ⟨1, _⟩ => show win1_3.index t (1 : Fin 2) * 128 + 1 * j.val = t.val * 128 + j.val; rw [e1]; omega

/-- The query rows the body loads at point `i`: 128 rows of the value block from row `128 i`, columns 0–191. -/
abbrev queryRows (i : grid1.Coords) (x1 : FVec Ideal S9216x256 .bf16) : FVec Ideal S128x192 .bf16 :=
  fun y => x1 ((Rect.unit (s := S9216x256) (k1_off1 i) S128x192.size (k1_off1_inb i)).emb y)

theorem queryRows_at (i : grid1.Coords) (x1 : FVec Ideal S9216x256 .bf16) (j : Fin 128) (c : Fin 192) :
    queryRows i x1 (ix2 j c)
      = x1 (ix2 (⟨128 * (i 0).val + j.val, by
          have h := k1_off1_inb i 0; rw [k1_off1_eq i] at h
          have : 128 * (i 0).val + 128 ≤ 9216 := h
          have := j.isLt; omega⟩ : Fin 9216) (⟨c.val, by have := c.isLt; omega⟩ : Fin 256)) := by
  refine congrArg x1 (funext fun a => Fin.ext ?_)
  have e := k1_off1_eq i
  match a with
  | ⟨0, _⟩ => show k1_off1 i 0 + 1 * j.val = 128 * (i 0).val + j.val; rw [e]; show 128 * (i 0).val + 1 * j.val = _; omega
  | ⟨1, _⟩ => show k1_off1 i 1 + 1 * c.val = c.val; rw [e]; show 0 + 1 * c.val = _; omega

/-- The one store into the output block leaves the body's value of the five loads. -/
theorem out_eq (c : Dev nD) (i : grid1.Coords) (a1 : Memref sig .tc .vmem S9216x192 .bf16) (h1 : a1.IsWhole)
    (a2 : Memref sig .tc .vmem S9216x256 .bf16) (h2 : a2.IsWhole) (a3 : Memref sig .tc .vmem S192x128 .f32) (h3 : a3.IsWhole)
    (a4 : Memref sig .tc .vmem S192x128 .f32) (h4 : a4.IsWhole) (a5 : Memref sig .tc .vmem S192x128 .f32) (h5 : a5.IsWhole)
    (x0 : Vec Ideal S9216x192 .bf16) (x1 : Vec Ideal S9216x256 .bf16) (x2 x3 : Vec Ideal S192x128 .f32) :
    out1_A_4 (F := Ideal) c i a1 h1 a2 h2 a3 h3 a4 h4 a5 h5 x0 x1 x2 x3
      = k1_pay1 (F := Ideal) (queryRows i x1) x0 x1 x2 x3 := by
  unfold out1_A_4
  rw [View.read_writes_eq_canon _ _ _ (cover1_A_4 c i a1 h1 a2 h2 a3 h3 a4 h4 a5 h5 x0 x1 x2 x3)]
  unfold kernelRun1_A
  dsimp only
  rw [View.canon_unit_zero Prep.hz2]
  simp only [View.readAt_eq_ld, h1.read_unread, h2.read_unread, h3.read_unread, h4.read_unread,
    View.ld_unit_zero (S := S9216x192) Prep.hz2, View.ld_unit_zero (S := S9216x256) Prep.hz2,
    View.ld_unit_zero (S := S192x128) Prep.hz2]
  rfl

/-- What point `t` writes back is its block of `outFn` of the arrays as the region finds them. -/
theorem flushed (c : Dev nD) (t : Fin cfg1.N) :
    (dat1 V c).flushed 4 t
      = ((cfg1.win 4).blk t).view.read (Elt Ideal) (outFn (vals V c) (keys V c) (refd V c) (gate5 V c)) := by
  show (cfg1.win 4).cut (grid1.coords t) ((dat1 V c).after 4 t) = _
  rw [after1_4]
  unfold outsAt1
  rw [out_eq]
  obtain ⟨-, -, -, -, -, -, -, -, e0, e1, eg⟩ := idx_facts t
  funext y
  obtain ⟨ch, j, rfl⟩ : ∃ (ch : Fin 192) (j : Fin 128), y = ix2 ch j := ⟨y 0, y 1, eq_ix2 y⟩
  show k1_pay1 (F := Ideal) (queryRows (grid1.coords t) (valsB V c t)) (keysB V c t) (valsB V c t) (refdB V c t) (gateB V c t) (ix2 ch j)
      = outFn (vals V c) (keys V c) (refd V c) (gate5 V c) (((cfg1.win 4).blk t).view.emb (ix2 ch j))
  have ke : ((cfg1.win 4).blk t).view.emb (ix2 ch j) = ix2 ch (colAt t j) := funext fun a => Fin.ext (by
    match a with
    | ⟨0, _⟩ => show win1_4.index t (0 : Fin 2) * 192 + 1 * ch.val = ch.val; rw [e0]; omega
    | ⟨1, _⟩ => show win1_4.index t (1 : Fin 2) * 128 + 1 * j.val = t.val * 128 + j.val; rw [e1]; omega)
  have hq : ∀ c' : Fin 192, (queryRows (grid1.coords t) (valsB V c t) (ix2 j c') : EReal)
      = vals V c (ix2 (colAt t j) (⟨c'.val, by have := c'.isLt; omega⟩ : Fin 256)) := fun c' => by
    rw [queryRows_at, valsB_at]
    refine congrArg (vals V c) (funext fun a => Fin.ext ?_)
    match a with
    | ⟨0, _⟩ => show 128 * ((grid1.coords t) 0).val + j.val = t.val * 128 + j.val; rw [eg]; omega
    | ⟨1, _⟩ => rfl
  rw [ke, pay_apply,
    acc_eq_gacc (vals V c) (keys V c) _ _ _ j (colAt t j) hq (keysB_at V c t) (valsB_at V c t),
    acc_eq_gacc (vals V c) (keys V c) _ _ _ j (colAt t j) hq (keysB_at V c t) (valsB_at V c t),
    refdB_at, gateB_at]
  rfl

/-- An index of the result array is in point `t`'s block iff each coordinate is in the block's range. -/
theorem mem_blk (t : Fin cfg1.N) (i : S192x9216.Idx) :
    i ∈ ((cfg1.win 4).blk t).view.set ↔ ∀ a : Fin 2, win1_4.index t a * S192x128.size a ≤ (i a).val ∧ (i a).val < win1_4.index t a * S192x128.size a + S192x128.size a := by
  show i ∈ ((View.whole main_v9).slice (win1_4.rect t)).set ↔ _
  rw [View.set_slice_whole, Rect.mem_set_unit]
  exact Iff.rfl

/-- The point whose block holds position `n`: `n / 128`. -/
def pointOf (n : Nat) (hn : n < 9216) : Fin cfg1.N := ⟨n / 128, by have h72 : cfg1.N = 72 := N_1; omega⟩

/-- So the result array ends holding `outFn`: the 72 column blocks tile it. -/
theorem out_final (c : Dev nD) :
    (dat1 V c).arrAt 4 cfg1.N = outFn (vals V c) (keys V c) (refd V c) (gate5 V c) :=
  (dat1 V c).arrAt_eq_of_cover 4 (outFn (vals V c) (keys V c) (refd V c) (gate5 V c)) (fun t _ => flushed V c t) fun i => by
    have hi0 : (i 0).val < 192 := (i 0).isLt
    have hi1 : (i 1).val < 9216 := (i 1).isLt
    refine ⟨pointOf (i 1).val hi1, flush1_4 _, ?_⟩
    rw [mem_blk]
    obtain ⟨-, -, -, -, -, -, -, -, e0, e1, -⟩ := idx_facts (pointOf (i 1).val hi1)
    have ht : (pointOf (i 1).val hi1).val = (i 1).val / 128 := rfl
    intro a
    match a with
    | ⟨0, _⟩ => show win1_4.index _ (0 : Fin 2) * 192 ≤ (i 0).val ∧ (i 0).val < win1_4.index _ (0 : Fin 2) * 192 + 192; rw [e0]; omega
    | ⟨1, _⟩ => show win1_4.index _ (1 : Fin 2) * 128 ≤ (i 1).val ∧ (i 1).val < win1_4.index _ (1 : Fin 2) * 128 + 128; rw [e1, ht]; omega

end Arrays

end Cert.KernelIdeal.Attn

end
-- ==== Proof.Attend.lean ====
/-
  The mathematics both programs compute, stated once over the extended reals and free of any tiling.

  Four feature arrays of shape [1, 192, 96, 96] are read as 192 channels over the 9216 positions of the flattened
  96 × 96 grid: `lat c n` is the gated latent feature (latent × gate) and `ref c n` the refined feature of channel
  `c` at position `n`. For a query position `m` every key position `n` gets the score `∑ c, ref c n · lat c m`,
  the weight `exp (score − the largest score of the column)`, and the context of channel `c` at `m` is the
  weighted mean of `lat c ·` under these weights. The result adds it to refined × its gate.

  The two programs arrange the weighted mean differently. One divides every weight by the column's total before the
  contraction (`ctxR`); the other contracts first and multiplies once by the reciprocal of the total (`ctxK`),
  and writes each score's product in the other order. Over finite inputs the scores, their maximum, the weights and the
  total are real numbers and the total is positive, so the two arrangements agree by distributivity in ℝ
  (proved in the module that imports this one); at an infinite input distributivity fails on the extended reals, which is why the inputs'
  finiteness is used.
-/
import Idealize.ShloMosaic.Lib.ValueIdx

noncomputable section

open scoped BigOperators

namespace Cert.Attend

open Idealize.ShloMosaic Idealize.ShloMosaic.ValueIdx

/-- The feature arrays' shape: one batch entry, 192 channels, a 96 × 96 grid of positions. -/
abbrev S4 : Shape := ⟨4, ![1, 192, 96, 96]⟩

/-- Channel `c` at position `n` of the flattened grid, as an index of the four-axis array: row `n / 96`, column `n % 96`. -/
def at4 (c : Fin 192) (n : Fin 9216) : S4.Idx :=
  ix4 (0 : Fin 1) c (⟨n.val / 96, by have := n.isLt; omega⟩ : Fin 96) (⟨n.val % 96, Nat.mod_lt _ (by decide)⟩ : Fin 96)

/-- The channel of a four-axis index. -/
def chan (i : S4.Idx) : Fin 192 := ⟨(i 1).val, (i 1).isLt⟩

/-- The flattened position of a four-axis index: row × 96 + column. -/
def pos (i : S4.Idx) : Fin 9216 :=
  ⟨(i 2).val * 96 + (i 3).val, by
    have h2 : (i 2).val < 96 := (i 2).isLt
    have h3 : (i 3).val < 96 := (i 3).isLt
    omega⟩

section Arrangements

variable (lat ref : Fin 192 → Fin 9216 → EReal)

/-! ### Contract first, then scale by the reciprocal of the total -/

/-- The score of key `n` for query `m`, the latent factor written first. -/
def scoreK (m n : Fin 9216) : EReal := ∑ c : Fin 192, lat c m * ref c n

/-- The largest score of query `m` over all keys (from `⊥`, the maximum's neutral element). -/
def topK (m : Fin 9216) : EReal := Finset.univ.fold max ⊥ fun n : Fin 9216 => scoreK lat ref m n

/-- The weight of key `n` for query `m`. -/
def wK (m n : Fin 9216) : EReal := Ideal.exp (scoreK lat ref m n - topK lat ref m)

/-- The context of channel `c` at query `m`: the weighted sum, times the reciprocal of the weights' total. -/
def ctxK (c : Fin 192) (m : Fin 9216) : EReal :=
  (∑ n : Fin 9216, wK lat ref m n * lat c n) * Ideal.div 1 (∑ n : Fin 9216, wK lat ref m n)

/-! ### Normalise every weight, then contract -/

/-- The score of key `n` for query `m`, the refined factor written first. -/
def scoreR (n m : Fin 9216) : EReal := ∑ c : Fin 192, ref c n * lat c m

/-- The largest score of query `m` over all keys. -/
def topR (m : Fin 9216) : EReal := Finset.univ.fold max ⊥ fun n : Fin 9216 => scoreR lat ref n m

/-- The weight of key `n` for query `m`. -/
def wR (n m : Fin 9216) : EReal := Ideal.exp (scoreR lat ref n m - topR lat ref m)

/-- The context of channel `c` at query `m`: each weight divided by the total, then the weighted sum. -/
def ctxR (c : Fin 192) (m : Fin 9216) : EReal :=
  ∑ n : Fin 9216, lat c n * Ideal.div (wR lat ref n m) (∑ n' : Fin 9216, wR lat ref n' m)

end Arrangements

/-! ### The whole result, over the four argument arrays -/

/-- The gated latent feature of channel `c` at position `n`. -/
def lat4 (x0 x2 : S4.Idx → EReal) : Fin 192 → Fin 9216 → EReal := fun c n => x0 (at4 c n) * x2 (at4 c n)

/-- The refined feature of channel `c` at position `n`. -/
def ref4 (x1 : S4.Idx → EReal) : Fin 192 → Fin 9216 → EReal := fun c n => x1 (at4 c n)

/-- The result, the context arranged as "contract, then scale". -/
def outK (x0 x1 x2 x3 : S4.Idx → EReal) : S4.Idx → EReal :=
  fun i => x1 i * x3 i + ctxK (lat4 x0 x2) (ref4 x1) (chan i) (pos i)

/-- The result, the context arranged as "normalise, then contract". -/
def outR (x0 x1 x2 x3 : S4.Idx → EReal) : S4.Idx → EReal :=
  fun i => x1 i * x3 i + ctxR (lat4 x0 x2) (ref4 x1) (chan i) (pos i)

end Cert.Attend

end
-- ==== Proof.Whole.lean ====
/-
  The idealized kernel's result array as a function of its four argument arrays: `Cert.Attend.outK`.

  The program is a stretch of reshapes, the preparation region, the attention region and one last reshape. The reshapes
  flatten each [1, 192, 96, 96] argument to [192, 9216]: entry (c, n) is the argument at channel c, row n / 96, column
  n % 96. The preparation region leaves the transposed gated latent features with their column of ones, and the
  transposed refined features; the attention region reads them as its value and key arrays, so its scores are
  `∑ c, lat c m · ref c l`, its weighted sums over the value array's columns 0–191 are `∑ l, w m l · lat c l`, and the
  weighted sum over the column of ones is the weights' total. The last reshape reads (c, n) back at (0, c, n / 96, n % 96).
-/
import proofs.«423645_j52286931862183_3_alg».proof.Proof.Prep
import proofs.«423645_j52286931862183_3_alg».proof.Proof.Attn
import proofs.«423645_j52286931862183_3_alg».proof.Proof.NamedRun
import proofs.«423645_j52286931862183_3_alg».proof.Proof.Attend
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-! ## The reshapes at an entry -/

/-- Flattening [1,192,96,96] to [192,96,96] to [192,9216]: entry (c, n) is the array at channel c, row n / 96, column n % 96. -/
theorem flat_at (x : Attend.S4.Idx → EReal) (c : Fin 192) (n : Fin 9216) :
    shapeCast S192x9216 (shapeCast S192x96x96 x shapeCasts_S1x192x96x96_S192x96x96) shapeCasts_S192x96x96_S192x9216 (ix2 c n)
      = x (Attend.at4 c n) := by
  have hc : c.val < 192 := c.isLt
  have hn : n.val < 9216 := n.isLt
  refine (shapeCast_apply _ _ (ix2 c n)
    (ix3 c (⟨n.val / 96, by omega⟩ : Fin 96) (⟨n.val % 96, Nat.mod_lt _ (by decide)⟩ : Fin 96)) ?_).trans ?_
  · rw [Shape.rowMajor_val_three, Shape.rowMajor_val_two]
    show (c.val * 96 + n.val / 96) * 96 + n.val % 96 = c.val * 9216 + n.val
    omega
  · refine shapeCast_apply _ _ _ (Attend.at4 c n) ?_
    rw [Shape.rowMajor_val_four, Shape.rowMajor_val_three]
    show ((0 * 192 + c.val) * 96 + n.val / 96) * 96 + n.val % 96 = (c.val * 96 + n.val / 96) * 96 + n.val % 96
    omega

/-- Unflattening [192,9216] to [1,192,96,96]: the four-axis index is read at its channel and its flattened position. -/
theorem unflat_at (y : S192x9216.Idx → EReal) (i : Attend.S4.Idx) :
    shapeCast S1x192x96x96 y shapeCasts_S192x9216_S1x192x96x96 i = y (ix2 (Attend.chan i) (Attend.pos i)) := by
  have h0 : (i 0).val < 1 := (i 0).isLt
  have h1 : (i 1).val < 192 := (i 1).isLt
  have h2 : (i 2).val < 96 := (i 2).isLt
  have h3 : (i 3).val < 96 := (i 3).isLt
  refine shapeCast_apply _ _ i _ ?_
  rw [Shape.rowMajor_val_two, Shape.rowMajor_val_four]
  show (i 1).val * 9216 + ((i 2).val * 96 + (i 3).val) = (((i 0).val * 192 + (i 1).val) * 96 + (i 2).val) * 96 + (i 3).val
  omega

/-- A four-axis index is the index of its own channel and flattened position. -/
theorem at4_chan_pos (i : Attend.S4.Idx) : Attend.at4 (Attend.chan i) (Attend.pos i) = i := by
  have h0 : (i 0).val < 1 := (i 0).isLt
  have h2 : (i 2).val < 96 := (i 2).isLt
  have h3 : (i 3).val < 96 := (i 3).isLt
  funext a
  apply Fin.ext
  match a with
  | ⟨0, _⟩ => show 0 = (i 0).val; omega
  | ⟨1, _⟩ => rfl
  | ⟨2, _⟩ => show ((i 2).val * 96 + (i 3).val) / 96 = (i 2).val; omega
  | ⟨3, _⟩ => show ((i 2).val * 96 + (i 3).val) % 96 = (i 3).val; omega

/-! ## The arrays at the segment boundaries -/

variable (m : (ℓ : Loc nD τ sig) → Buf (Elt Ideal) ℓ) (ρ : Dev nD → PrngReg)

/-- The four argument arrays as launched, at their literal type. -/
abbrev a0 (c : Dev nD) : Attend.S4.Idx → EReal := m ((c : Thread nD τ).loc main_arg0)
abbrev a1 (c : Dev nD) : Attend.S4.Idx → EReal := m ((c : Thread nD τ).loc main_arg1)
abbrev a2 (c : Dev nD) : Attend.S4.Idx → EReal := m ((c : Thread nD τ).loc main_arg2)
abbrev a3 (c : Dev nD) : Attend.S4.Idx → EReal := m ((c : Thread nD τ).loc main_arg3)

/-- After the first stretch the flattened latent array is the reshape of the first argument … -/
theorem V1_lat (c : Dev nD) : Prep.lat2 (V1 m ρ) c
    = shapeCast S192x9216 (shapeCast S192x96x96 (a0 m c) shapeCasts_S1x192x96x96_S192x96x96) shapeCasts_S192x96x96_S192x9216 := by
  show StableHlo.after hostOps0 (W0 m ρ c) (Proc.devRef .tc main_v1) = _
  after_results
  rfl
/-- … the flattened refined array of the second … -/
theorem V1_ref (c : Dev nD) : Prep.ref2 (V1 m ρ) c
    = shapeCast S192x9216 (shapeCast S192x96x96 (a1 m c) shapeCasts_S1x192x96x96_S192x96x96) shapeCasts_S192x96x96_S192x9216 := by
  show StableHlo.after hostOps0 (W0 m ρ c) (Proc.devRef .tc main_v3) = _
  after_results
  rfl
/-- … the flattened latent gate of the third … -/
theorem V1_gate (c : Dev nD) : Prep.gate2 (V1 m ρ) c
    = shapeCast S192x9216 (shapeCast S192x96x96 (a2 m c) shapeCasts_S1x192x96x96_S192x96x96) shapeCasts_S192x96x96_S192x9216 := by
  show StableHlo.after hostOps0 (W0 m ρ c) (Proc.devRef .tc main_v5) = _
  after_results
  rfl
/-- … and the flattened refined gate of the fourth. -/
theorem V1_gate5 (c : Dev nD) : (V1 m ρ c main_v7 : S192x9216.Idx → EReal)
    = shapeCast S192x9216 (shapeCast S192x96x96 (a3 m c) shapeCasts_S1x192x96x96_S192x96x96) shapeCasts_S192x96x96_S192x9216 := by
  show StableHlo.after hostOps0 (W0 m ρ c) (Proc.devRef .tc main_v7) = _
  after_results
  rfl

/-- The attention region's value array is what the preparation region left in its first output … -/
theorem V2_vals (c : Dev nD) : Attn.vals (V2 m ρ) c = Prep.latT (V1 m ρ) c :=
  (W2_arr m ρ c 3).trans (Prep.latT_final (V1 m ρ) c)
/-- … its key array what it left in the second … -/
theorem V2_keys (c : Dev nD) : Attn.keys (V2 m ρ) c = Prep.refT (V1 m ρ) c :=
  (W2_arr m ρ c 4).trans (Prep.refT_final (V1 m ρ) c)
/-- … the refined array is untouched by the preparation region, which only reads it … -/
theorem V2_refd (c : Dev nD) : Attn.refd (V2 m ρ) c = Prep.ref2 (V1 m ρ) c :=
  (W2_arr m ρ c 2).trans ((dat0 (V1 m ρ) c).arrAt_in 2 rfl _)
/-- … and its gate is no array of that region at all. -/
theorem V2_gate5 (c : Dev nD) : Attn.gate5 (V2 m ρ) c = (V1 m ρ c main_v7 : S192x9216.Idx → EReal) :=
  W2_of_ne m ρ c main_v7 (by decide)

/-- The last reshape's operand is what the attention region left in its output. -/
theorem W3_out (c : Dev nD) : (W3 m ρ c (Proc.devRef .tc main_v9) : S192x9216.Idx → EReal)
    = Attn.outFn (Attn.vals (V2 m ρ) c) (Attn.keys (V2 m ρ) c) (Attn.refd (V2 m ρ) c) (Attn.gate5 (V2 m ρ) c) :=
  (W3_arr m ρ c 4).trans (Attn.out_final (V2 m ρ) c)

/-- The result array is that operand unflattened. -/
theorem W4_res (c : Dev nD) : (W4 m ρ c (Proc.devRef .tc main_v10) : Attend.S4.Idx → EReal)
    = shapeCast S1x192x96x96 (W3 m ρ c (Proc.devRef .tc main_v9) : S192x9216.Idx → EReal) shapeCasts_S192x9216_S1x192x96x96 := by
  show StableHlo.after hostOps2 (W3 m ρ c) (Proc.devRef .tc main_v10) = _
  after_results
  rfl

/-! ## The specification's feature functions, read off the arrays -/

/-- The gated latent feature: the flattened latent array times its flattened gate. -/
theorem lat_at (c : Dev nD) (ch : Fin 192) (n : Fin 9216) :
    Prep.lat2 (V1 m ρ) c (ix2 ch n) * Prep.gate2 (V1 m ρ) c (ix2 ch n) = Attend.lat4 (a0 m c) (a2 m c) ch n := by
  rw [V1_lat, V1_gate, flat_at, flat_at]
  rfl

/-- The refined feature: the flattened refined array. -/
theorem ref_at (c : Dev nD) (ch : Fin 192) (n : Fin 9216) :
    Prep.ref2 (V1 m ρ) c (ix2 ch n) = Attend.ref4 (a1 m c) ch n := by
  rw [V1_ref, flat_at]
  rfl

section AnyEntry

variable (V : (c : Dev nD) → (b : Ref sig .tc) → Buf (Elt Ideal) ((c : Thread nD τ).loc b))

/-- A column below 192 of the value array holds latent × gate, transposed. -/
theorem latT_head (c : Dev nD) (l : Fin 9216) (ch : Fin 192) :
    Prep.latT V c (ix2 l (⟨ch.val, by have := ch.isLt; omega⟩ : Fin 256))
      = Prep.lat2 V c (ix2 ch l) * Prep.gate2 V c (ix2 ch l) := by
  unfold Prep.latT
  rw [dif_pos (show ((ix2 l (⟨ch.val, by have := ch.isLt; omega⟩ : Fin 256)) 1).val < 192 from ch.isLt)]

/-- Column 192 of the value array is constant one. -/
theorem latT_ones (c : Dev nD) (l : Fin 9216) : Prep.latT V c (ix2 l (⟨192, by decide⟩ : Fin 256)) = 1 := by
  unfold Prep.latT
  rw [dif_neg (show ¬((ix2 l (⟨192, by decide⟩ : Fin 256)) 1).val < 192 from Nat.lt_irrefl 192), if_pos rfl]

/-- The key array holds the refined array, transposed. -/
theorem refT_at (c : Dev nD) (l : Fin 9216) (ch : Fin 192) : Prep.refT V c (ix2 l ch) = Prep.ref2 V c (ix2 ch l) := rfl

end AnyEntry

/-! ## The attention region's function over those arrays is the specification's "contract, then scale" -/

theorem gsc_eq (c : Dev nD) (n l : Fin 9216) :
    Attn.gsc (Prep.latT (V1 m ρ) c) (Prep.refT (V1 m ρ) c) n l
      = Attend.scoreK (Attend.lat4 (a0 m c) (a2 m c)) (Attend.ref4 (a1 m c)) n l := by
  unfold Attn.gsc Attend.scoreK
  refine Finset.sum_congr rfl fun ch _ => ?_
  rw [latT_head, refT_at, lat_at, ref_at]

theorem gtp_eq (c : Dev nD) (n : Fin 9216) :
    Attn.gtp (Prep.latT (V1 m ρ) c) (Prep.refT (V1 m ρ) c) n
      = Attend.topK (Attend.lat4 (a0 m c) (a2 m c)) (Attend.ref4 (a1 m c)) n := by
  unfold Attn.gtp Attend.topK
  exact Finset.fold_congr fun l _ => gsc_eq m ρ c n l

theorem gwt_eq (c : Dev nD) (n l : Fin 9216) :
    Attn.gwt (Prep.latT (V1 m ρ) c) (Prep.refT (V1 m ρ) c) n l
      = Attend.wK (Attend.lat4 (a0 m c) (a2 m c)) (Attend.ref4 (a1 m c)) n l := by
  unfold Attn.gwt Attend.wK
  rw [gsc_eq, gtp_eq]

/-- The weighted sum over a column below 192 is the weighted sum of that channel's gated latent features. -/
theorem gacc_head (c : Dev nD) (n : Fin 9216) (ch : Fin 192) :
    Attn.gacc (Prep.latT (V1 m ρ) c) (Prep.refT (V1 m ρ) c) n (⟨ch.val, by have := ch.isLt; omega⟩ : Fin 256)
      = ∑ l : Fin 9216, Attend.wK (Attend.lat4 (a0 m c) (a2 m c)) (Attend.ref4 (a1 m c)) n l
          * Attend.lat4 (a0 m c) (a2 m c) ch l := by
  unfold Attn.gacc
  refine Finset.sum_congr rfl fun l _ => ?_
  rw [gwt_eq, latT_head, lat_at]

/-- The weighted sum over the column of ones is the weights' total. -/
theorem gacc_ones (c : Dev nD) (n : Fin 9216) :
    Attn.gacc (Prep.latT (V1 m ρ) c) (Prep.refT (V1 m ρ) c) n (⟨192, by decide⟩ : Fin 256)
      = ∑ l : Fin 9216, Attend.wK (Attend.lat4 (a0 m c) (a2 m c)) (Attend.ref4 (a1 m c)) n l := by
  unfold Attn.gacc
  refine Finset.sum_congr rfl fun l _ => ?_
  rw [gwt_eq, latT_ones, mul_one]

/-- THE RESULT: the last boundary's contents of the result array are the specification's "contract, then scale"
    function of the four arguments as launched. -/
theorem result_eq (c : Dev nD) :
    (W4 m ρ c (Proc.devRef .tc main_v10) : Attend.S4.Idx → EReal) = Attend.outK (a0 m c) (a1 m c) (a2 m c) (a3 m c) := by
  funext i
  have hr : Prep.ref2 (V1 m ρ) c (ix2 (Attend.chan i) (Attend.pos i)) = a1 m c i := by
    rw [V1_ref, flat_at, at4_chan_pos]
  have hg : (V1 m ρ c main_v7 : S192x9216.Idx → EReal) (ix2 (Attend.chan i) (Attend.pos i)) = a3 m c i := by
    rw [V1_gate5, flat_at, at4_chan_pos]
  have hhead := gacc_head m ρ c (Attend.pos i) (Attend.chan i)
  have hones := gacc_ones m ρ c (Attend.pos i)
  rw [W4_res, unflat_at, W3_out, V2_vals, V2_keys, V2_refd, V2_gate5]
  show Prep.ref2 (V1 m ρ) c (ix2 (Attend.chan i) (Attend.pos i))
        * (V1 m ρ c main_v7 : S192x9216.Idx → EReal) (ix2 (Attend.chan i) (Attend.pos i))
      + Attn.gacc (Prep.latT (V1 m ρ) c) (Prep.refT (V1 m ρ) c) (Attend.pos i) (⟨(Attend.chan i).val, _⟩ : Fin 256)
        * Ideal.div 1 (Attn.gacc (Prep.latT (V1 m ρ) c) (Prep.refT (V1 m ρ) c) (Attend.pos i) (⟨192, by decide⟩ : Fin 256)) = _
  rw [hr, hg, hhead, hones]
  rfl

end Cert.KernelIdeal.Whole

end
-- ==== Proof.RefValue.lean ====
/-
  The reference's result as a function of its argument arrays, read index by index: it is `Cert.Attend.outR`,
  the arrangement that divides every weight by its column's total before the contraction.

  The reading goes stage by stage. Each two-axis stage is read at `ix2 · ·` over literal coordinates: the flattened
  feature arrays are the specification's `lat4` and `ref4`, the first contraction is the score, the column maximum is
  the fold of `max` from `⊥`, the exponential of the difference is the weight, the column sum is the weights' total, the
  quotient is the normalised weight and the second contraction is the context.
-/
import proofs.«423645_j52286931862183_3_alg».proof.Defs
import proofs.«423645_j52286931862183_3_alg».proof.Proof.Gen.ReferenceIdeal.Run
import proofs.«423645_j52286931862183_3_alg».proof.Proof.Gen.ReferenceIdeal.Read
import proofs.«423645_j52286931862183_3_alg».proof.Proof.Attend

noncomputable section

namespace Cert.ReferenceIdeal.RefValue

open Idealize.ShloMosaic Idealize.ShloMosaic.ValueIdx Cert.ReferenceIdeal Cert.ReferenceIdeal.Read

/-- The four-axis feature arrays at the ideal values. -/
abbrev Arr4 : Type := (⟨S1x192x96x96, .f32⟩ : BufTy).Contents (Elt Ideal)

/-! ### Index facts: the composed index maps of the layout stages, at literal coordinates -/

/-- Flattening [1,192,96,96] to [192,96,96] to [192,9216]: entry `(c, n)` is read at channel `c`, row `n / 96`, column `n % 96`. -/
theorem flat_gated (c : Fin 192) (n : Fin 9216) : idx_main_v1 (idx_main_v2 (ix2 c n)) = Attend.at4 c n := by
  have hc : c.val < 192 := c.isLt
  have hn : n.val < 9216 := n.isLt
  funext a
  apply Fin.ext
  match a with
  | ⟨0, _⟩ => rfl
  | ⟨1, _⟩ =>
    show (((c.val * 9216 + n.val) / 9216 * 96 + (c.val * 9216 + n.val) / 96 % 96) * 96 + (c.val * 9216 + n.val) % 96) / 9216 % 192 = c.val
    omega
  | ⟨2, _⟩ =>
    show (((c.val * 9216 + n.val) / 9216 * 96 + (c.val * 9216 + n.val) / 96 % 96) * 96 + (c.val * 9216 + n.val) % 96) / 96 % 96 = n.val / 96
    omega
  | ⟨3, _⟩ =>
    show (((c.val * 9216 + n.val) / 9216 * 96 + (c.val * 9216 + n.val) / 96 % 96) * 96 + (c.val * 9216 + n.val) % 96) % 96 = n.val % 96
    omega

/-- The same flattening of the refined array. -/
theorem flat_refined (c : Fin 192) (n : Fin 9216) : idx_main_v3 (idx_main_v4 (ix2 c n)) = Attend.at4 c n := by
  have hc : c.val < 192 := c.isLt
  have hn : n.val < 9216 := n.isLt
  funext a
  apply Fin.ext
  match a with
  | ⟨0, _⟩ => rfl
  | ⟨1, _⟩ =>
    show (((c.val * 9216 + n.val) / 9216 * 96 + (c.val * 9216 + n.val) / 96 % 96) * 96 + (c.val * 9216 + n.val) % 96) / 9216 % 192 = c.val
    omega
  | ⟨2, _⟩ =>
    show (((c.val * 9216 + n.val) / 9216 * 96 + (c.val * 9216 + n.val) / 96 % 96) * 96 + (c.val * 9216 + n.val) % 96) / 96 % 96 = n.val / 96
    omega
  | ⟨3, _⟩ =>
    show (((c.val * 9216 + n.val) / 9216 * 96 + (c.val * 9216 + n.val) / 96 % 96) * 96 + (c.val * 9216 + n.val) % 96) % 96 = n.val % 96
    omega

/-- The score contraction's left operand at `(n, m)`, channel `k`: entry `(k, n)`. -/
theorem score_left (n m : Fin 9216) (k : Fin 192) : lidx_main_v5 (ix2 n m) k = ix2 k n :=
  funext fun a => Fin.ext (by match a with | ⟨0, _⟩ => rfl | ⟨1, _⟩ => rfl)

/-- The score contraction's right operand at `(n, m)`, channel `k`: entry `(k, m)`. -/
theorem score_right (n m : Fin 9216) (k : Fin 192) : ridx_main_v5 (ix2 n m) k = ix2 k m :=
  funext fun a => Fin.ext (by match a with | ⟨0, _⟩ => rfl | ⟨1, _⟩ => rfl)

/-- A column vector broadcast to [1,9216] and then to [9216,9216] is read, at `(n, m)`, at `m`. -/
theorem column_of_top (n m : Fin 9216) : idx_main_v9 (idx_main_v10 (ix2 n m)) = ix1 m :=
  funext fun a => Fin.ext (by match a with | ⟨0, _⟩ => rfl)

/-- The same for the broadcast of the totals. -/
theorem column_of_total (n m : Fin 9216) : idx_main_v14 (idx_main_v15 (ix2 n m)) = ix1 m :=
  funext fun a => Fin.ext (by match a with | ⟨0, _⟩ => rfl)

/-- The column sum at `m` runs over the entries `(k, m)`. -/
theorem total_entry (m k : Fin 9216) : idx_main_v13 (ix1 m) k = ix2 k m :=
  funext fun a => Fin.ext (by match a with | ⟨0, _⟩ => rfl | ⟨1, _⟩ => rfl)

/-- The context contraction's left operand at `(c, m)`, key `k`: entry `(c, k)`. -/
theorem context_left (c : Fin 192) (m k : Fin 9216) : lidx_main_v17 (ix2 c m) k = ix2 c k :=
  funext fun a => Fin.ext (by match a with | ⟨0, _⟩ => rfl | ⟨1, _⟩ => rfl)

/-- The context contraction's right operand at `(c, m)`, key `k`: entry `(k, m)`. -/
theorem context_right (c : Fin 192) (m k : Fin 9216) : ridx_main_v17 (ix2 c m) k = ix2 k m :=
  funext fun a => Fin.ext (by match a with | ⟨0, _⟩ => rfl | ⟨1, _⟩ => rfl)

/-- Unflattening [192,9216] to [1,192,96,96]: the four-axis index `i` is read at its channel and its flattened position
    (the leading coordinate is `0`). -/
theorem unflat (i : S1x192x96x96.Idx) : idx_main_v19 i = ix2 (Attend.chan i) (Attend.pos i) := by
  have h0 : (i 0).val < 1 := (i 0).isLt
  have h1 : (i 1).val < 192 := (i 1).isLt
  have h2 : (i 2).val < 96 := (i 2).isLt
  have h3 : (i 3).val < 96 := (i 3).isLt
  funext a
  apply Fin.ext
  match a with
  | ⟨0, _⟩ =>
    show ((((i 0).val * 192 + (i 1).val) * 96 + (i 2).val) * 96 + (i 3).val) / 9216 = (i 1).val
    omega
  | ⟨1, _⟩ =>
    show ((((i 0).val * 192 + (i 1).val) * 96 + (i 2).val) * 96 + (i 3).val) % 9216 = (i 2).val * 96 + (i 3).val
    omega

/-! ### The maximum's initial value -/

/-- The maximum's initial word is `-∞`, the bottom of the extended reals. -/
theorem neg_inf_word : Ideal.ofBits .f32 0xFF800000#32 = (⊥ : EReal) := by simp [Ideal.ofBits, Ideal.ieee]

/-! ### The stages, one at a time -/

section Stages

variable (x0 x1 x2 : Arr4)

/-- The flattened product of the latent array and its gate is the gated latent feature. -/
theorem gated_at (c : Fin 192) (n : Fin 9216) :
    val_main_v2 (F := Ideal) x0 x2 (ix2 c n) = Attend.lat4 x0 x2 c n := by
  rw [val_main_v2_apply, val_main_v1_apply, val_main_v0_apply, flat_gated]
  rfl

/-- The flattened refined array is the refined feature. -/
theorem refined_at (c : Fin 192) (n : Fin 9216) :
    val_main_v4 (F := Ideal) x1 (ix2 c n) = Attend.ref4 x1 c n := by
  rw [val_main_v4_apply, val_main_v3_apply, flat_refined]
  rfl

/-- The first contraction at `(n, m)` is the score of key `n` for query `m`, the refined factor first. -/
theorem score_at (n m : Fin 9216) :
    val_main_v5 (F := Ideal) x0 x1 x2 (ix2 n m) = Attend.scoreR (Attend.lat4 x0 x2) (Attend.ref4 x1) n m := by
  rw [val_main_v5_apply]
  unfold Attend.scoreR
  refine Finset.sum_congr rfl fun k _ => ?_
  rw [score_left, score_right, refined_at, gated_at]

/-- The shape fact of a reduction of a [9216,9216] array over its rows. -/
theorem rows_reduce : S9216x9216.Reduces [0] S9216 := by decide

/-- Over result index `m`, the source index with row `k` inserted is `(k, m)`. -/
theorem rows_lift (m k : Fin 9216) : rows_reduce.lift (ix1 m) k = ix2 k m :=
  funext fun a => Fin.ext (by match a with | ⟨0, _⟩ => rfl | ⟨1, _⟩ => rfl)

/-- The reduction by maximum over the rows, at column `m`, is the largest score of query `m`. -/
theorem top_reduce_at (m : Fin 9216) :
    val_main_v6 (F := Ideal) x0 x1 x2 (ix1 m) = Attend.topR (Attend.lat4 x0 x2) (Attend.ref4 x1) m := by
  have hy : ∀ n : Fin 9216, val_main_v5 (F := Ideal) x0 x1 x2 (ix2 n m)
      = Attend.scoreR (Attend.lat4 x0 x2) (Attend.ref4 x1) n m := fun n => score_at x0 x1 x2 n m
  unfold val_main_v6 Attend.topR
  generalize val_main_v5 (F := Ideal) x0 x1 x2 = y at hy ⊢
  rw [Host.reduce_eq_fold_single (FloatOps.maximumf (F := Ideal) (φ := .f32)) y _ Gen.reducesTo_S9216x9216_S9216_d0
    rows_reduce Gen.h_S_ (ix1 m), val_main_cst_apply, Ideal.ofBits_def, neg_inf_word]
  refine Finset.fold_congr fun k _ => ?_
  exact (congrArg y (rows_lift m k)).trans (hy k)

/-- Taking the maximum with a vector of `-∞` changes nothing. -/
theorem top_at (m : Fin 9216) :
    val_main_v8 (F := Ideal) x0 x1 x2 (ix1 m) = Attend.topR (Attend.lat4 x0 x2) (Attend.ref4 x1) m := by
  rw [val_main_v8_apply, val_main_v7_apply, val_main_cst_0_apply, top_reduce_at, Ideal.maximumf_def, Ideal.ofBits_def,
    neg_inf_word]
  exact max_bot_left _

/-- The broadcast maximum at `(n, m)` is the largest score of query `m`. -/
theorem top_bcast_at (n m : Fin 9216) :
    val_main_v10 (F := Ideal) x0 x1 x2 (ix2 n m) = Attend.topR (Attend.lat4 x0 x2) (Attend.ref4 x1) m := by
  rw [val_main_v10_apply, val_main_v9_apply, column_of_top, top_at]

/-- The exponential of the score less the column's maximum is the weight of key `n` for query `m`. -/
theorem weight_at (n m : Fin 9216) :
    val_main_v12 (F := Ideal) x0 x1 x2 (ix2 n m) = Attend.wR (Attend.lat4 x0 x2) (Attend.ref4 x1) n m := by
  rw [val_main_v12_apply, val_main_v11_apply, score_at, top_bcast_at]
  rfl

/-- The column sum from zero is the total of query `m`'s weights. -/
theorem total_at (m : Fin 9216) :
    val_main_v13 (F := Ideal) x0 x1 x2 (ix1 m) = ∑ n' : Fin 9216, Attend.wR (Attend.lat4 x0 x2) (Attend.ref4 x1) n' m := by
  rw [val_main_v13_apply, val_main_cst_1_apply, Ideal.ofBits_def, Ideal.ofBits_zero_f32, zero_add]
  refine Finset.sum_congr rfl fun k _ => ?_
  rw [total_entry, weight_at]

/-- The broadcast total at `(n, m)`. -/
theorem total_bcast_at (n m : Fin 9216) :
    val_main_v15 (F := Ideal) x0 x1 x2 (ix2 n m) = ∑ n' : Fin 9216, Attend.wR (Attend.lat4 x0 x2) (Attend.ref4 x1) n' m := by
  rw [val_main_v15_apply, val_main_v14_apply, column_of_total, total_at]

/-- The quotient at `(n, m)` is the weight divided by its column's total. -/
theorem normalised_at (n m : Fin 9216) :
    val_main_v16 (F := Ideal) x0 x1 x2 (ix2 n m)
      = Ideal.div (Attend.wR (Attend.lat4 x0 x2) (Attend.ref4 x1) n m)
          (∑ n' : Fin 9216, Attend.wR (Attend.lat4 x0 x2) (Attend.ref4 x1) n' m) := by
  rw [val_main_v16_apply, weight_at, total_bcast_at]
  rfl

/-- The second contraction at `(c, m)` is the context of channel `c` at query `m`, every weight normalised first. -/
theorem context_at (c : Fin 192) (m : Fin 9216) :
    val_main_v17 (F := Ideal) x0 x1 x2 (ix2 c m) = Attend.ctxR (Attend.lat4 x0 x2) (Attend.ref4 x1) c m := by
  rw [val_main_v17_apply]
  unfold Attend.ctxR
  refine Finset.sum_congr rfl fun k _ => ?_
  rw [context_left, context_right, gated_at, normalised_at]

end Stages

/-- The reference's last stage, at every index, is the specification's "normalise, then contract" result. -/
theorem val_eq_outR (x0 x1 x2 x3 : (⟨S1x192x96x96, .f32⟩ : BufTy).Contents (Elt Ideal)) :
    val_main_v20 (F := Ideal) x0 x1 x2 x3 = Cert.Attend.outR x0 x1 x2 x3 := by
  funext i
  rw [val_main_v20_apply, val_main_v18_apply, val_main_v19_apply, unflat, context_at]
  rfl

end Cert.ReferenceIdeal.RefValue

end
-- ==== Proof.AttendLaw.lean ====
/-
  The law that joins the two arrangements of the weighted mean (`Cert.Attend.ctxK`, `Cert.Attend.ctxR`): over real
  inputs every score, the column maximum, every weight and the weights' total are real, the total is positive, and
  `(∑ n, w n · a n) · (1 / D) = ∑ n, a n · (w n / D)` is distributivity in ℝ.
-/
import proofs.«423645_j52286931862183_3_alg».proof.Proof.Attend

noncomputable section

open scoped BigOperators

namespace Cert.Attend

open Idealize.ShloMosaic Idealize.ShloMosaic.ValueIdx

/-! ### Three facts over abstract finite index types -/

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two coerced reals is the coercion of the larger real. -/
private theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum, folded from `⊥`, of finitely many reals over a nonempty index set is a real: the first element
    absorbs the `⊥` the fold starts from, and every later step is the maximum of two reals. -/
private theorem fold_max_real {κ : Type*} (s : Finset κ) (hs : s.Nonempty) (f : κ → ℝ) :
    ∃ t : ℝ, s.fold max ⊥ (fun n => (f n : EReal)) = (t : EReal) := by
  induction hs using Finset.Nonempty.cons_induction with
  | singleton a => exact ⟨f a, by rw [Finset.fold_singleton]; exact max_eq_left bot_le⟩
  | cons a s ha _ ih =>
    obtain ⟨t, ht⟩ := ih
    exact ⟨max (f a) t, by rw [Finset.fold_cons, ht, max_coe]⟩

/-- Distributivity: with real weights `w` of nonzero total `D` and real values `x`, scaling the weighted sum once by
    the reciprocal of `D` is the sum of the values times the weights each divided by `D`. -/
private theorem scale_once_eq_scale_each {κ : Type*} [Fintype κ] (w x : κ → ℝ) (hD : (∑ n, w n) ≠ 0) :
    (∑ n, (w n : EReal) * (x n : EReal)) * Ideal.div 1 (∑ n, (w n : EReal))
      = ∑ n, (x n : EReal) * Ideal.div (w n : EReal) (∑ n', (w n' : EReal)) := by
  rw [← coe_sum, Ideal.div_coe hD]
  simp only [Ideal.div_coe hD, ← EReal.coe_mul, ← coe_sum, ← EReal.coe_one]
  rw [EReal.coe_eq_coe_iff, Finset.sum_mul]
  refine Finset.sum_congr rfl fun n _ => ?_
  ring

section Arrangements

variable (lat ref : Fin 192 → Fin 9216 → EReal)

/-- The two spellings of a score differ only in the order of each product. -/
private theorem scoreR_eq_scoreK (m n : Fin 9216) : scoreR lat ref n m = scoreK lat ref m n := by
  unfold scoreR scoreK
  exact Finset.sum_congr rfl fun c _ => mul_comm _ _

/-- Hence the column maxima agree. -/
private theorem topR_eq_topK (m : Fin 9216) : topR lat ref m = topK lat ref m := by
  unfold topR topK
  exact congrArg (fun f : Fin 9216 → EReal => Finset.univ.fold max ⊥ f) (funext fun n => scoreR_eq_scoreK lat ref m n)

/-- And so do the weights. -/
private theorem wR_eq_wK (m n : Fin 9216) : wR lat ref n m = wK lat ref m n := by
  unfold wR wK
  rw [scoreR_eq_scoreK, topR_eq_topK]

/-- Over real inputs the two arrangements of the weighted mean agree. -/
theorem ctxK_eq_ctxR (hl : ∀ c n, ∃ r : ℝ, lat c n = (r : EReal)) (hr : ∀ c n, ∃ r : ℝ, ref c n = (r : EReal))
    (c : Fin 192) (m : Fin 9216) : ctxK lat ref c m = ctxR lat ref c m := by
  choose a ha using hl
  choose b hb using hr
  -- every score of the column is a real: a finite sum of products of reals
  have hs : ∀ n, scoreK lat ref m n = ((∑ c', a c' m * b c' n : ℝ) : EReal) := by
    intro n
    unfold scoreK
    rw [coe_sum]
    exact Finset.sum_congr rfl fun c' _ => by rw [ha, hb, EReal.coe_mul]
  -- so the column's maximum is a real
  obtain ⟨t, ht⟩ : ∃ t : ℝ, topK lat ref m = (t : EReal) := by
    unfold topK
    rw [show (fun n => scoreK lat ref m n) = fun n => ((∑ c', a c' m * b c' n : ℝ) : EReal) from funext hs]
    exact fold_max_real _ Finset.univ_nonempty _
  -- and every weight is the exponential of a real
  have hw : ∀ n, wK lat ref m n = ((Real.exp ((∑ c', a c' m * b c' n) - t) : ℝ) : EReal) := by
    intro n
    unfold wK
    rw [hs, ht, ← EReal.coe_sub, Ideal.exp_coe]
  -- the total of the weights is positive
  have hD : (∑ n, Real.exp ((∑ c', a c' m * b c' n) - t)) ≠ 0 :=
    (Finset.sum_pos (fun n _ => Real.exp_pos _) Finset.univ_nonempty).ne'
  unfold ctxK ctxR
  simp only [wR_eq_wK, hw, ha]
  exact scale_once_eq_scale_each _ _ hD

end Arrangements

/-- Over finite latent, refined and latent-gate arrays the two results are one function (the refined gate may be anything:
    it enters both sides in the same product). -/
theorem outK_eq_outR (x0 x1 x2 x3 : S4.Idx → EReal) (h0 : ∀ i, ∃ r : ℝ, x0 i = (r : EReal))
    (h1 : ∀ i, ∃ r : ℝ, x1 i = (r : EReal)) (h2 : ∀ i, ∃ r : ℝ, x2 i = (r : EReal)) :
    outK x0 x1 x2 x3 = outR x0 x1 x2 x3 := by
  funext i
  unfold outK outR
  rw [ctxK_eq_ctxR]
  · intro c n
    obtain ⟨a, ha⟩ := h0 (at4 c n)
    obtain ⟨b, hb⟩ := h2 (at4 c n)
    exact ⟨a * b, by unfold lat4; rw [ha, hb, EReal.coe_mul]⟩
  · intro c n
    exact h1 (at4 c n)

end Cert.Attend

end
-- ==== Proof.Finite.lean ====
/-
  What the precondition says: every entry of each of the four argument arrays is a real number.

  The predicate is, for each array x, the conjunction over all indices of "|x i| < +∞", the four conjunctions joined by
  "and". An extended real whose absolute value max a (-a) lies strictly below ⊤ is neither ⊤ nor ⊥, hence a real.
-/
import proofs.«423645_j52286931862183_3_alg».proof.Pre_finite_inputs
import proofs.«423645_j52286931862183_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx
open Cert.Pre_finite_inputs (S1x192x96x96 S_)

/-- The rank-0 shape has exactly one index. -/
local instance : Subsingleton S_.Idx := ⟨fun a b => funext fun d => d.elim0⟩

/-- The bit pattern of the positive infinity denotes the top element of the extended reals. -/
private theorem inf_bits : Ideal.ofBits .f32 0x7F800000#32 = (⊤ : EReal) := by
  simp [Ideal.ofBits, Ideal.ieee]

/-- A one-bit word made from a Boolean is 1 exactly when the Boolean is true. -/
private theorem ofBool_eq_one (b : Bool) : BitVec.ofBool b = 1#1 ↔ b = true := by
  cases b <;> decide

/-- An extended real whose absolute value max a (-a) is strictly below ⊤ is a real: at ⊥ the negation is ⊤, at ⊤ the
    value itself is ⊤, and in both cases the maximum is ⊤. -/
private theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- The ordered "less than" of two extended reals, as a one-bit word, is 1 exactly when the first is below the second. -/
private theorem cmp_olt_eq_one (a b : EReal) : Ideal.cmp .olt a b = 1#1 ↔ a < b := by
  unfold Ideal.cmp
  rw [ofBool_eq_one]
  exact decide_eq_true_iff

/-- One array: if the conjunction over all indices of "|x i| < +∞" is 1, every entry of x is a real. -/
private theorem real_of_all [Cert.Pre_finite_inputs.Facts] (x : FVec Ideal S1x192x96x96 .f32) (init : IVec S_ 1)
    (e : Host.reduce IntOp.andi
          (cmpf .olt (Host.absf x)
            (broadcastInDim S1x192x96x96 ![] Cert.Pre_finite_inputs.Facts.bcast_S_S1x192x96x96
              (constant (F := Ideal) S_ .f32 0x7F800000#32)))
          init Cert.Pre_finite_inputs.Facts.reducesTo_S1x192x96x96_S_d0_1_2_3 Cert.Pre_finite_inputs.Facts.h_S_ ix0 = 1#1)
    (i : S1x192x96x96.Idx) : ∃ r : ℝ, x i = (r : EReal) := by
  -- the element of the compared array at i
  have h1 := Host.reduce_andi_all _ _ _ _ _ e i
  -- read at i: the comparison of max (x i) (-(x i)) with the constant's value
  have h2 : Ideal.cmp .olt (max (x i) (-(x i))) (Ideal.ofBits .f32 0x7F800000#32) = 1#1 := h1
  rw [inf_bits, cmp_olt_eq_one] at h2
  exact real_of_abs_lt_top (x i) h2

/-- If the finiteness predicate of the four arrays is all ones, each entry of each array is (the coercion of) a real. -/
theorem real_of_pre [Cert.Pre_finite_inputs.Facts]
    (x0 x1 x2 x3 : FVec Ideal Cert.Pre_finite_inputs.S1x192x96x96 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have e := congrFun h ix0
  dsimp only [Cert.Pre_finite_inputs.fn, Cert.Pre_finite_inputs.fn_part1] at e
  -- the result at its one index is the "and" of the four conjunctions
  simp only [andi, IntOp.andi_eq_one] at e
  obtain ⟨⟨⟨e0, e1⟩, e2⟩, e3⟩ := e
  exact ⟨real_of_all x0 _ e0, real_of_all x1 _ e1, real_of_all x2 _ e2, real_of_all x3 _ e3⟩

end Cert.Finite

end
-- ==== Proof.lean ====
/-
  Every claim of this certificate, assembled.

  Both idealized programs compute, at channel c and position m of the 96 × 96 grid,
  refined · gate + (the weighted mean of the gated latent features of channel c under the weights
  exp (score − the column's largest score)), where the score of key n for query m is ∑ c, refined c n · latent c m.
  The kernel contracts first and scales once by the reciprocal of the weights' total, which it gets as the weighted sum
  of a column of ones (`Cert.Attend.outK`, read off the kernel's two regions in `Whole`); the reference divides every weight
  by the total before contracting (`Cert.Attend.outR`, read off its run in `RefValue`). The precondition makes every
  argument entry real (`Finite`), and over real entries the two arrangements agree by distributivity (`AttendLaw`).
  The three frames are the programs' runs with the results forgotten, and the idealization rewrote no operation.
-/
import proofs.«423645_j52286931862183_3_alg».proof.Defs
import proofs.«423645_j52286931862183_3_alg».proof.Proof.Gen.Kernel
import proofs.«423645_j52286931862183_3_alg».proof.Proof.Gen.Kernel.Frame
import proofs.«423645_j52286931862183_3_alg».proof.Proof.Gen.KernelIdeal
import proofs.«423645_j52286931862183_3_alg».proof.Proof.Gen.KernelIdeal.Frame
import proofs.«423645_j52286931862183_3_alg».proof.Proof.Gen.ReferenceIdeal
import proofs.«423645_j52286931862183_3_alg».proof.Proof.Gen.ReferenceIdeal.Run
import proofs.«423645_j52286931862183_3_alg».proof.Proof.Gen.ReferenceIdeal.Read
import proofs.«423645_j52286931862183_3_alg».proof.Proof.Gen.Pre_finite_inputs
import proofs.«423645_j52286931862183_3_alg».proof.Proof.NamedRun
import proofs.«423645_j52286931862183_3_alg».proof.Proof.Whole
import proofs.«423645_j52286931862183_3_alg».proof.Proof.RefValue
import proofs.«423645_j52286931862183_3_alg».proof.Proof.AttendLaw
import proofs.«423645_j52286931862183_3_alg».proof.Proof.Finite

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four arguments, all of them finite, the idealized kernel ends with its result array at
    "contract, then scale" and the reference with its at "normalise, then contract" of the same arguments: one function. -/
theorem algebraic : Cert.algebraic_KernelIdeal_ReferenceIdeal := by
  intro m ρ m' ρ' hpre hagree
  refine ⟨fun c => Cert.Attend.outK (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)), ?_, ?_⟩
  · exact (θ_run Cert.KernelIdeal.defs _ _).mono
      (fun r h c => ⟨((h c).1).trans (Cert.KernelIdeal.Whole.result_eq m ρ c), (h c).2⟩)
      (Cert.KernelIdeal.NamedRun.run m ρ)
  · refine (θ_run Cert.ReferenceIdeal.defs _ _).mono (fun r h c => ⟨?_, (h c).2⟩)
      (Cert.ReferenceIdeal.Value.run (F := Ideal) m' ρ')
    obtain ⟨f0, f1, f2, -⟩ := Cert.Finite.real_of_pre _ _ _ _ (hpre c)
    refine ((h c).1).trans ?_
    refine (Cert.ReferenceIdeal.Read.val_main_v20_eq (F := Ideal)
      (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))).trans ?_
    rw [Cert.ReferenceIdeal.RefValue.val_eq_outR, (hagree c).1, (hagree c).2.1, (hagree c).2.2.1, (hagree c).2.2.2]
    exact (Cert.Attend.outK_eq_outR _ _ _ _ f0 f1 f2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
